-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S4000x2048 : Shape := ⟨2, ![4000, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S4000x2048 : S_.BroadcastsInDim S4000x2048 (![] : Fin 0 → Fin S4000x2048.rank)
  reducesTo_S4000x2048_S_d0_1 : S4000x2048.ReducesTo [0, 1] S_

variable [Facts]

def fn_part1 {F : FTy → Type} [FloatOps F] (main_v13 : IVec S_ 1) (main_v16 : IVec S4000x2048 1) : IVec S_ 1 :=
  let main_c_5 : IVec S_ 1 := constantI S_ 1 1#1
  let main_v17 : IVec S_ 1 := (fun x v => Host.reduce IntOp.andi x v reducesTo_S4000x2048_S_d0_1 h_S_) main_v16 main_c_5
  let main_v18 : IVec S_ 1 := andi main_v13 main_v17
  main_v18

def fn {F : FTy → Type} [FloatOps F] (main_arg0 : FVec F S32768x2048 .f32) (main_arg1 : FVec F S32768x2048 .f32) (main_arg2 : IVec S32768 32) (main_arg3 : IVec S32768 32) (main_arg4 : FVec F S4000x2048 .f32) (main_arg5 : FVec F S4000x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S4000x2048 .f32 := Host.absf main_arg4
  let main_cst_2 : FVec F S_ .f32 := constant S_ .f32 0x7F800000#32
  let main_v10 : FVec F S4000x2048 .f32 := broadcastInDim S4000x2048 ![] bcast_S_S4000x2048 main_cst_2
  let main_v11 : IVec S4000x2048 1 := cmpf .olt main_v9 main_v10
  let main_c_3 : IVec S_ 1 := constantI S_ 1 1#1
  let main_v12 : IVec S_ 1 := (fun x v => Host.reduce IntOp.andi x v reducesTo_S4000x2048_S_d0_1 h_S_) main_v11 main_c_3
  let main_v13 : IVec S_ 1 := andi main_v8 main_v12
  let main_v14 : FVec F S4000x2048 .f32 := Host.absf main_arg5
  let main_cst_4 : FVec F S_ .f32 := constant S_ .f32 0x7F800000#32
  let main_v15 : FVec F S4000x2048 .f32 := broadcastInDim S4000x2048 ![] bcast_S_S4000x2048 main_cst_4
  let main_v16 : IVec S4000x2048 1 := cmpf .olt main_v14 main_v15
  fn_part1 (F := F) main_v13 main_v16
-- ==== Kernel.lean ====
abbrev S32768x2048 : Shape := ⟨2, ![32768, 2048]⟩
abbrev S32768 : Shape := ⟨1, ![32768]⟩
abbrev S4000x2048 : Shape := ⟨2, ![4000, 2048]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S400x256 : Shape := ⟨2, ![400, 256]⟩
abbrev S400x2048 : Shape := ⟨2, ![400, 2048]⟩
abbrev S_ : Shape := ⟨0, ![]⟩
abbrev S4000 : Shape := ⟨1, ![4000]⟩
abbrev S32768x1 : Shape := ⟨2, ![32768, 1]⟩
abbrev S4000x1 : Shape := ⟨2, ![4000, 1]⟩
abbrev S1x4000x2048 : Shape := ⟨3, ![1, 4000, 2048]⟩
abbrev S2x4000x2048 : Shape := ⟨3, ![2, 4000, 2048]⟩

abbrev nBuf : Space → Nat
  | .hbm => 101
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768, .i32⟩
  | .hbm, ⟨3, _⟩ => ⟨S32768, .i32⟩
  | .hbm, ⟨4, _⟩ => ⟨S4000x2048, .f32⟩
  | .hbm, ⟨5, _⟩ => ⟨S4000x2048, .f32⟩
  | .hbm, ⟨6, _⟩ => ⟨S4000x2048, .f32⟩
  | .hbm, ⟨7, _⟩ => ⟨S4000x2048, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S4000, .f32⟩
  | .hbm, ⟨12, _⟩ => ⟨S32768x1, .i32⟩
  | .hbm, ⟨13, _⟩ => ⟨S4000, .f32⟩
  | .hbm, ⟨14, _⟩ => ⟨S_, .f32⟩
  | .hbm, ⟨15, _⟩ => ⟨S4000, .f32⟩
  | .hbm, ⟨16, _⟩ => ⟨S4000, .f32⟩
  | .hbm, ⟨17, _⟩ => ⟨S4000x1, .f32⟩
  | .hbm, ⟨18, _⟩ => ⟨S4000x2048, .f32⟩
  | .hbm, ⟨19, _⟩ => ⟨S4000x2048, .f32⟩
  | .hbm, ⟨20, _⟩ => ⟨S4000x2048, .f32⟩
  | .hbm, ⟨21, _⟩ => ⟨S_, .f32⟩
  | .hbm, ⟨22, _⟩ => ⟨S4000, .f32⟩
  | .hbm, ⟨23, _⟩ => ⟨S4000x1, .f32⟩
  | .hbm, ⟨24, _⟩ => ⟨S4000x1, .f32⟩
  | .hbm, ⟨25, _⟩ => ⟨S_, .f32⟩
  | .hbm, ⟨26, _⟩ => ⟨S4000x1, .f32⟩
  | .hbm, ⟨27, _⟩ => ⟨S4000x1, .f32⟩
  | .hbm, ⟨28, _⟩ => ⟨S4000x2048, .f32⟩
  | .hbm, ⟨29, _⟩ => ⟨S4000x2048, .f32⟩
  | .hbm, ⟨30, _⟩ => ⟨S_, .f32⟩
  | .hbm, ⟨31, _⟩ => ⟨S4000x2048, .f32⟩
  | .hbm, ⟨32, _⟩ => ⟨S4000x2048, .f32⟩
  | .hbm, ⟨33, _⟩ => ⟨S_, .f32⟩
  | .hbm, ⟨34, _⟩ => ⟨S4000x2048, .f32⟩
  | .hbm, ⟨35, _⟩ => ⟨S4000x2048, .f32⟩
  | .hbm, ⟨36, _⟩ => ⟨S4000x2048, .f32⟩
  | .hbm, ⟨37, _⟩ => ⟨S4000x2048, .f32⟩
  | .hbm, ⟨38, _⟩ => ⟨S_, .f32⟩
  | .hbm, ⟨39, _⟩ => ⟨S4000, .f32⟩
  | .hbm, ⟨40, _⟩ => ⟨S4000x1, .f32⟩
  | .hbm, ⟨41, _⟩ => ⟨S4000x1, .f32⟩
  | .hbm, ⟨42, _⟩ => ⟨S_, .f32⟩
  | .hbm, ⟨43, _⟩ => ⟨S4000x1, .f32⟩
  | .hbm, ⟨44, _⟩ => ⟨S4000x1, .f32⟩
  | .hbm, ⟨45, _⟩ => ⟨S4000x2048, .f32⟩
  | .hbm, ⟨46, _⟩ => ⟨S4000x2048, .f32⟩
  | .hbm, ⟨47, _⟩ => ⟨S_, .f32⟩
  | .hbm, ⟨48, _⟩ => ⟨S4000, .f32⟩
  | .hbm, ⟨49, _⟩ => ⟨S4000, .i1⟩
  | .hbm, ⟨50, _⟩ => ⟨S4000x1, .i1⟩
  | .hbm, ⟨51, _⟩ => ⟨S4000x2048, .i1⟩
  | .hbm, ⟨52, _⟩ => ⟨S4000x2048, .f32⟩
  | .hbm, ⟨53, _⟩ => ⟨S_, .f32⟩
  | .hbm, ⟨54, _⟩ => ⟨S32768, .f32⟩
  | .hbm, ⟨55, _⟩ => ⟨S_, .f32⟩
  | .hbm, ⟨56, _⟩ => ⟨S4000, .f32⟩
  | .hbm, ⟨57, _⟩ => ⟨S32768x1, .i32⟩
  | .hbm, ⟨58, _⟩ => ⟨S4000, .f32⟩
  | .hbm, ⟨59, _⟩ => ⟨S_, .f32⟩
  | .hbm, ⟨60, _⟩ => ⟨S4000, .f32⟩
  | .hbm, ⟨61, _⟩ => ⟨S4000, .f32⟩
  | .hbm, ⟨62, _⟩ => ⟨S4000x1, .f32⟩
  | .hbm, ⟨63, _⟩ => ⟨S4000x2048, .f32⟩
  | .hbm, ⟨64, _⟩ => ⟨S4000x2048, .f32⟩
  | .hbm, ⟨65, _⟩ => ⟨S4000x2048, .f32⟩
  | .hbm, ⟨66, _⟩ => ⟨S_, .f32⟩
  | .hbm, ⟨67, _⟩ => ⟨S4000, .f32⟩
  | .hbm, ⟨68, _⟩ => ⟨S4000x1, .f32⟩
  | .hbm, ⟨69, _⟩ => ⟨S4000x1, .f32⟩
  | .hbm, ⟨70, _⟩ => ⟨S_, .f32⟩
  | .hbm, ⟨71, _⟩ => ⟨S4000x1, .f32⟩
  | .hbm, ⟨72, _⟩ => ⟨S4000x1, .f32⟩
  | .hbm, ⟨73, _⟩ => ⟨S4000x2048, .f32⟩
  | .hbm, ⟨74, _⟩ => ⟨S4000x2048, .f32⟩
  | .hbm, ⟨75, _⟩ => ⟨S_, .f32⟩
  | .hbm, ⟨76, _⟩ => ⟨S4000x2048, .f32⟩
  | .hbm, ⟨77, _⟩ => ⟨S4000x2048, .f32⟩
  | .hbm, ⟨78, _⟩ => ⟨S_, .f32⟩
  | .hbm, ⟨79, _⟩ => ⟨S4000x2048, .f32⟩
  | .hbm, ⟨80, _⟩ => ⟨S4000x2048, .f32⟩
  | .hbm, ⟨81, _⟩ => ⟨S4000x2048, .f32⟩
  | .hbm, ⟨82, _⟩ => ⟨S4000x2048, .f32⟩
  | .hbm, ⟨83, _⟩ => ⟨S_, .f32⟩
  | .hbm, ⟨84, _⟩ => ⟨S4000, .f32⟩
  | .hbm, ⟨85, _⟩ => ⟨S4000x1, .f32⟩
  | .hbm, ⟨86, _⟩ => ⟨S4000x1, .f32⟩
  | .hbm, ⟨87, _⟩ => ⟨S_, .f32⟩
  | .hbm, ⟨88, _⟩ => ⟨S4000x1, .f32⟩
  | .hbm, ⟨89, _⟩ => ⟨S4000x1, .f32⟩
  | .hbm, ⟨90, _⟩ => ⟨S4000x2048, .f32⟩
  | .hbm, ⟨91, _⟩ => ⟨S4000x2048, .f32⟩
  | .hbm, ⟨92, _⟩ => ⟨S_, .f32⟩
  | .hbm, ⟨93, _⟩ => ⟨S4000, .f32⟩
  | .hbm, ⟨94, _⟩ => ⟨S4000, .i1⟩
  | .hbm, ⟨95, _⟩ => ⟨S4000x1, .i1⟩
  | .hbm, ⟨96, _⟩ => ⟨S4000x2048, .i1⟩
  | .hbm, ⟨97, _⟩ => ⟨S4000x2048, .f32⟩
  | .hbm, ⟨98, _⟩ => ⟨S1x4000x2048, .f32⟩
  | .hbm, ⟨99, _⟩ => ⟨S1x4000x2048, .f32⟩
  | .hbm, ⟨100, _⟩ => ⟨S2x4000x2048, .f32⟩
  | .local _ .vmem, ⟨0, _⟩ => ⟨S256x2048, .f32⟩
  | .local _ .vmem, ⟨1, _⟩ => ⟨S256x2048, .f32⟩
  | .local _ .vmem, ⟨2, _⟩ => ⟨S256, .i32⟩
  | .local _ .vmem, ⟨3, _⟩ => ⟨S256, .i32⟩
  | .local _ .vmem, ⟨4, _⟩ => ⟨S4000x2048, .f32⟩
  | .local _ .vmem, ⟨5, _⟩ => ⟨S256x2048, .f32⟩
  | .local _ .vmem, ⟨6, _⟩ => ⟨S256x2048, .f32⟩
  | .local _ .vmem, ⟨7, _⟩ => ⟨S256, .i32⟩
  | .local _ .vmem, ⟨8, _⟩ => ⟨S256, .i32⟩
  | .local _ .vmem, ⟨9, _⟩ => ⟨S4000x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call2_v0 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call3_v0 : Ref sig .tc := ⟨.hbm, 65, rfl⟩
abbrev main_call3_cst : Ref sig .tc := ⟨.hbm, 66, rfl⟩
abbrev main_call3_v1 : Ref sig .tc := ⟨.hbm, 67, rfl⟩
abbrev main_call3_v2 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call4_v0 : Ref sig .tc := ⟨.hbm, 82, rfl⟩
abbrev main_call4_cst : Ref sig .tc := ⟨.hbm, 83, rfl⟩
abbrev main_call4_v1 : Ref sig .tc := ⟨.hbm, 84, rfl⟩
abbrev main_call4_v2 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call5_v0 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_4 : BitVec 32 := 0#32
  let c10_i32 : BitVec 32 := 10#32
  let v15 : BitVec 32 := Scalar.addi c0_i32_4 c10_i32
  let c1_i32 : BitVec 32 := 1#32
  ⟨c0_i32_4, v15, c1_i32⟩
def k0_mult1 (k0_t1 : Fin k0_t1_loop.trips) : BitVec 32 :=
  let c0_i32_7 : BitVec 32 := 0#32
  let c0_i32_4 : BitVec 32 := 0#32
  let c1_i32 : BitVec 32 := 1#32
  let arg4 : BitVec 32 := Scf.iv c0_i32_4 c1_i32 k0_t1
  let c1_i32_6 : BitVec 32 := 1#32
  let v16 : BitVec 32 := Scalar.muli arg4 c1_i32_6
  let v17 : BitVec 32 := Scalar.addi c0_i32_7 v16
  let c400_i32 : BitVec 32 := 400#32
  let v18 : BitVec 32 := Scalar.muli v17 c400_i32
  v18
def k0_off1 (k0_t1 : Fin k0_t1_loop.trips) : Fin 2 → Nat :=
  let c0_i32_7 : BitVec 32 := 0#32
  let c0_i32_4 : BitVec 32 := 0#32
  let c1_i32 : BitVec 32 := 1#32
  let arg4 : BitVec 32 := Scf.iv c0_i32_4 c1_i32 k0_t1
  let c1_i32_6 : BitVec 32 := 1#32
  let v16 : BitVec 32 := Scalar.muli arg4 c1_i32_6
  let v17 : BitVec 32 := Scalar.addi c0_i32_7 v16
  let c400_i32 : BitVec 32 := 400#32
  let v18 : BitVec 32 := Scalar.muli v17 c400_i32
  let v19 : BitVec 32 := v18
  let v29 : Index := Scalar.indexCast v19
  let c0_9 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4000x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

@[reducible] def k1_t1_loop : Scf.Loop 32 :=
  let c0_i32_4 : BitVec 32 := 0#32
  let c10_i32 : BitVec 32 := 10#32
  let v15 : BitVec 32 := Scalar.addi c0_i32_4 c10_i32
  let c1_i32 : BitVec 32 := 1#32
  ⟨c0_i32_4, v15, c1_i32⟩
def k1_mult1 (k1_t1 : Fin k1_t1_loop.trips) : BitVec 32 :=
  let c0_i32_7 : BitVec 32 := 0#32
  let c0_i32_4 : BitVec 32 := 0#32
  let c1_i32 : BitVec 32 := 1#32
  let arg4 : BitVec 32 := Scf.iv c0_i32_4 c1_i32 k1_t1
  let c1_i32_6 : BitVec 32 := 1#32
  let v16 : BitVec 32 := Scalar.muli arg4 c1_i32_6
  let v17 : BitVec 32 := Scalar.addi c0_i32_7 v16
  let c400_i32 : BitVec 32 := 400#32
  let v18 : BitVec 32 := Scalar.muli v17 c400_i32
  v18
def k1_off1 (k1_t1 : Fin k1_t1_loop.trips) : Fin 2 → Nat :=
  let c0_i32_7 : BitVec 32 := 0#32
  let c0_i32_4 : BitVec 32 := 0#32
  let c1_i32 : BitVec 32 := 1#32
  let arg4 : BitVec 32 := Scf.iv c0_i32_4 c1_i32 k1_t1
  let c1_i32_6 : BitVec 32 := 1#32
  let v16 : BitVec 32 := Scalar.muli arg4 c1_i32_6
  let v17 : BitVec 32 := Scalar.addi c0_i32_7 v16
  let c400_i32 : BitVec 32 := 400#32
  let v18 : BitVec 32 := Scalar.muli v17 c400_i32
  let v19 : BitVec 32 := v18
  let v29 : Index := Scalar.indexCast v19
  let c0_9 : Index := 0#32
  ![v29.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4000x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S4000x2048_S4000x2048_0_0 : ∀ a, (![0, 0] : Fin 2 → Nat) a + S4000x2048.size a ≤ S4000x2048.size a
  h_S4000x2048 : 0 < S4000x2048.numel
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  iota_S400x256_d0_w32 : S400x256.Iotas .tc 32 [0]
  broadcasts_S1x256_S400x256 : S1x256.Broadcasts S400x256
  natLt_1_32 : 1 < 32
  h_S400x2048 : 0 < S400x2048.numel
  shapeCasts_S400x2048_S400x2048 : S400x2048.ShapeCasts S400x2048
  bcast_S_S32768 : S_.BroadcastsInDim S32768 (![] : Fin 0 → Fin S32768.rank)
  bcast_S_S4000 : S_.BroadcastsInDim S4000 (![] : Fin 0 → Fin S4000.rank)
  bcast_S32768_S32768x1_0 : S32768.BroadcastsInDim S32768x1 (![0] : Fin 1 → Fin S32768x1.rank)
  bcast_S4000_S4000x1_0 : S4000.BroadcastsInDim S4000x1 (![0] : Fin 1 → Fin S4000x1.rank)
  bcast_S4000x1_S4000x2048_0_1 : S4000x1.BroadcastsInDim S4000x2048 (![0, 1] : Fin 2 → Fin S4000x2048.rank)
  reducesTo_S4000x2048_S4000_d1 : S4000x2048.ReducesTo [1] S4000
  h_S_ : 0 < S_.numel
  bcast_S_S4000x1 : S_.BroadcastsInDim S4000x1 (![] : Fin 0 → Fin S4000x1.rank)
  bcast_S_S4000x2048 : S_.BroadcastsInDim S4000x2048 (![] : Fin 0 → Fin S4000x2048.rank)
  bcast_S4000x2048_S1x4000x2048_1_2 : S4000x2048.BroadcastsInDim S1x4000x2048 (![1, 2] : Fin 2 → Fin S1x4000x2048.rank)
  concatenates_S1x4000x2048_S1x4000x2048_S2x4000x2048_d0 : Shape.Concatenates [S1x4000x2048, S1x4000x2048] S2x4000x2048 0
  dot_S400x256_S256x2048_S400x2048_1_0_0_1_n_n_wf : DotDims.WF S400x256 S256x2048 S400x2048 [1] [0] [0] [1] [] []
  scatter_S4000_S32768x1_S32768_n_0_0_1_wf : ScatterDims.WF S4000 S32768x1 S32768 [] [0] [0] 1
  hrank0 : 0 < grid0.rank
  k0_t1_ok : k0_t1_loop.OK
  k0_mult1_dvd : ∀ k0_t1 : Fin k0_t1_loop.trips, 400 ∣ (k0_mult1 k0_t1).toNat
  k0_off1_inb : ∀ k0_t1 : Fin k0_t1_loop.trips, ∀ a, (k0_off1 k0_t1) a + S400x2048.size a ≤ S4000x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S32768.size a
  hwx0_1 : ∀ i : grid0.Coords, EltTy.bits .i32 = 32 ∨ (Rect.block (s := S32768) S256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4000x2048.size a ≤ S4000x2048.size a
  hwx0_2 : ∀ i : grid0.Coords, EltTy.bits .f32 = 32 ∨ (Rect.block (s := S4000x2048) S4000x2048.size (cc0_transform_2 i) (hinb0_2 i)).WholeWords (EltTy.packing .f32)
  hrank1 : 0 < grid1.rank
  k1_t1_ok : k1_t1_loop.OK
  k1_mult1_dvd : ∀ k1_t1 : Fin k1_t1_loop.trips, 400 ∣ (k1_mult1 k1_t1).toNat
  k1_off1_inb : ∀ k1_t1 : Fin k1_t1_loop.trips, ∀ a, (k1_off1 k1_t1) a + S400x2048.size a ≤ S4000x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S32768x2048.size a
  hwx1_0 : ∀ i : grid1.Coords, EltTy.bits .f32 = 32 ∨ (Rect.block (s := S32768x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S32768.size a
  hwx1_1 : ∀ i : grid1.Coords, EltTy.bits .i32 = 32 ∨ (Rect.block (s := S32768) S256.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4000x2048.size a ≤ S4000x2048.size a
  hwx1_2 : ∀ i : grid1.Coords, EltTy.bits .f32 = 32 ∨ (Rect.block (s := S4000x2048) S4000x2048.size (cc1_transform_2 i) (hinb1_2 i)).WholeWords (EltTy.packing .f32)

variable [Facts₀]

def dot_S400x256_S256x2048_S400x2048_1_0_0_1_n_n : DotDims S400x256 S256x2048 S400x2048 where
  lhsContracting := [1]
  rhsContracting := [0]
  lhsNonContracting := [0]
  rhsNonContracting := [1]
  lhsBatch := []
  rhsBatch := []
  wf := dot_S400x256_S256x2048_S400x2048_1_0_0_1_n_n_wf
def scatter_S4000_S32768x1_S32768_n_0_0_1 : ScatterDims S4000 S32768x1 S32768 where
  updateWindowDims := []
  insertedWindowDims := [0]
  scatterDimsToOperandDims := [0]
  indexVectorDim := 1
  wf := scatter_S4000_S32768x1_S32768_n_0_0_1_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4000x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S32768 : Shape := ⟨1, ![32768]⟩
abbrev S4000x2048 : Shape := ⟨2, ![4000, 2048]⟩
abbrev S_ : Shape := ⟨0, ![]⟩
abbrev S32768x1 : Shape := ⟨2, ![32768, 1]⟩
abbrev S4000 : Shape := ⟨1, ![4000]⟩
abbrev S4000x1 : Shape := ⟨2, ![4000, 1]⟩
abbrev S1x4000x2048 : Shape := ⟨3, ![1, 4000, 2048]⟩
abbrev S2x4000x2048 : Shape := ⟨3, ![2, 4000, 2048]⟩

abbrev nBuf : Space → Nat
  | .hbm => 127
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768, .i32⟩
  | .hbm, ⟨3, _⟩ => ⟨S32768, .i32⟩
  | .hbm, ⟨4, _⟩ => ⟨S4000x2048, .f32⟩
  | .hbm, ⟨5, _⟩ => ⟨S4000x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S4000x2048, .f32⟩
  | .hbm, ⟨28, _⟩ => ⟨S32768x1, .i32⟩
  | .hbm, ⟨29, _⟩ => ⟨S4000x2048, .f32⟩
  | .hbm, ⟨30, _⟩ => ⟨S_, .f32⟩
  | .hbm, ⟨31, _⟩ => ⟨S32768, .f32⟩
  | .hbm, ⟨32, _⟩ => ⟨S_, .f32⟩
  | .hbm, ⟨33, _⟩ => ⟨S4000, .f32⟩
  | .hbm, ⟨34, _⟩ => ⟨S32768x1, .i32⟩
  | .hbm, ⟨35, _⟩ => ⟨S4000, .f32⟩
  | .hbm, ⟨36, _⟩ => ⟨S_, .f32⟩
  | .hbm, ⟨37, _⟩ => ⟨S4000, .f32⟩
  | .hbm, ⟨38, _⟩ => ⟨S4000, .f32⟩
  | .hbm, ⟨39, _⟩ => ⟨S4000x1, .f32⟩
  | .hbm, ⟨40, _⟩ => ⟨S4000x2048, .f32⟩
  | .hbm, ⟨41, _⟩ => ⟨S4000x2048, .f32⟩
  | .hbm, ⟨42, _⟩ => ⟨S4000x2048, .f32⟩
  | .hbm, ⟨43, _⟩ => ⟨S_, .f32⟩
  | .hbm, ⟨44, _⟩ => ⟨S4000, .f32⟩
  | .hbm, ⟨45, _⟩ => ⟨S4000x1, .f32⟩
  | .hbm, ⟨46, _⟩ => ⟨S4000x1, .f32⟩
  | .hbm, ⟨47, _⟩ => ⟨S_, .f32⟩
  | .hbm, ⟨48, _⟩ => ⟨S4000x1, .f32⟩
  | .hbm, ⟨49, _⟩ => ⟨S4000x1, .f32⟩
  | .hbm, ⟨50, _⟩ => ⟨S4000x2048, .f32⟩
  | .hbm, ⟨51, _⟩ => ⟨S4000x2048, .f32⟩
  | .hbm, ⟨52, _⟩ => ⟨S_, .f32⟩
  | .hbm, ⟨53, _⟩ => ⟨S4000x2048, .f32⟩
  | .hbm, ⟨54, _⟩ => ⟨S4000x2048, .f32⟩
  | .hbm, ⟨55, _⟩ => ⟨S_, .f32⟩
  | .hbm, ⟨56, _⟩ => ⟨S4000x2048, .f32⟩
  | .hbm, ⟨57, _⟩ => ⟨S4000x2048, .f32⟩
  | .hbm, ⟨58, _⟩ => ⟨S4000x2048, .f32⟩
  | .hbm, ⟨59, _⟩ => ⟨S4000x2048, .f32⟩
  | .hbm, ⟨60, _⟩ => ⟨S_, .f32⟩
  | .hbm, ⟨61, _⟩ => ⟨S4000, .f32⟩
  | .hbm, ⟨62, _⟩ => ⟨S4000x1, .f32⟩
  | .hbm, ⟨63, _⟩ => ⟨S4000x1, .f32⟩
  | .hbm, ⟨64, _⟩ => ⟨S_, .f32⟩
  | .hbm, ⟨65, _⟩ => ⟨S4000x1, .f32⟩
  | .hbm, ⟨66, _⟩ => ⟨S4000x1, .f32⟩
  | .hbm, ⟨67, _⟩ => ⟨S4000x2048, .f32⟩
  | .hbm, ⟨68, _⟩ => ⟨S4000x2048, .f32⟩
  | .hbm, ⟨69, _⟩ => ⟨S_, .f32⟩
  | .hbm, ⟨70, _⟩ => ⟨S4000, .f32⟩
  | .hbm, ⟨71, _⟩ => ⟨S4000, .i1⟩
  | .hbm, ⟨72, _⟩ => ⟨S4000x1, .i1⟩
  | .hbm, ⟨73, _⟩ => ⟨S4000x2048, .i1⟩
  | .hbm, ⟨74, _⟩ => ⟨S4000x2048, .f32⟩
  | .hbm, ⟨75, _⟩ => ⟨S_, .f32⟩
  | .hbm, ⟨76, _⟩ => ⟨S4000x2048, .f32⟩
  | .hbm, ⟨77, _⟩ => ⟨S32768x1, .i32⟩
  | .hbm, ⟨78, _⟩ => ⟨S4000x2048, .f32⟩
  | .hbm, ⟨79, _⟩ => ⟨S_, .f32⟩
  | .hbm, ⟨80, _⟩ => ⟨S32768, .f32⟩
  | .hbm, ⟨81, _⟩ => ⟨S_, .f32⟩
  | .hbm, ⟨82, _⟩ => ⟨S4000, .f32⟩
  | .hbm, ⟨83, _⟩ => ⟨S32768x1, .i32⟩
  | .hbm, ⟨84, _⟩ => ⟨S4000, .f32⟩
  | .hbm, ⟨85, _⟩ => ⟨S_, .f32⟩
  | .hbm, ⟨86, _⟩ => ⟨S4000, .f32⟩
  | .hbm, ⟨87, _⟩ => ⟨S4000, .f32⟩
  | .hbm, ⟨88, _⟩ => ⟨S4000x1, .f32⟩
  | .hbm, ⟨89, _⟩ => ⟨S4000x2048, .f32⟩
  | .hbm, ⟨90, _⟩ => ⟨S4000x2048, .f32⟩
  | .hbm, ⟨91, _⟩ => ⟨S4000x2048, .f32⟩
  | .hbm, ⟨92, _⟩ => ⟨S_, .f32⟩
  | .hbm, ⟨93, _⟩ => ⟨S4000, .f32⟩
  | .hbm, ⟨94, _⟩ => ⟨S4000x1, .f32⟩
  | .hbm, ⟨95, _⟩ => ⟨S4000x1, .f32⟩
  | .hbm, ⟨96, _⟩ => ⟨S_, .f32⟩
  | .hbm, ⟨97, _⟩ => ⟨S4000x1, .f32⟩
  | .hbm, ⟨98, _⟩ => ⟨S4000x1, .f32⟩
  | .hbm, ⟨99, _⟩ => ⟨S4000x2048, .f32⟩
  | .hbm, ⟨100, _⟩ => ⟨S4000x2048, .f32⟩
  | .hbm, ⟨101, _⟩ => ⟨S_, .f32⟩
  | .hbm, ⟨102, _⟩ => ⟨S4000x2048, .f32⟩
  | .hbm, ⟨103, _⟩ => ⟨S4000x2048, .f32⟩
  | .hbm, ⟨104, _⟩ => ⟨S_, .f32⟩
  | .hbm, ⟨105, _⟩ => ⟨S4000x2048, .f32⟩
  | .hbm, ⟨106, _⟩ => ⟨S4000x2048, .f32⟩
  | .hbm, ⟨107, _⟩ => ⟨S4000x2048, .f32⟩
  | .hbm, ⟨108, _⟩ => ⟨S4000x2048, .f32⟩
  | .hbm, ⟨109, _⟩ => ⟨S_, .f32⟩
  | .hbm, ⟨110, _⟩ => ⟨S4000, .f32⟩
  | .hbm, ⟨111, _⟩ => ⟨S4000x1, .f32⟩
  | .hbm, ⟨112, _⟩ => ⟨S4000x1, .f32⟩
  | .hbm, ⟨113, _⟩ => ⟨S_, .f32⟩
  | .hbm, ⟨114, _⟩ => ⟨S4000x1, .f32⟩
  | .hbm, ⟨115, _⟩ => ⟨S4000x1, .f32⟩
  | .hbm, ⟨116, _⟩ => ⟨S4000x2048, .f32⟩
  | .hbm, ⟨117, _⟩ => ⟨S4000x2048, .f32⟩
  | .hbm, ⟨118, _⟩ => ⟨S_, .f32⟩
  | .hbm, ⟨119, _⟩ => ⟨S4000, .f32⟩
  | .hbm, ⟨120, _⟩ => ⟨S4000, .i1⟩
  | .hbm, ⟨121, _⟩ => ⟨S4000x1, .i1⟩
  | .hbm, ⟨122, _⟩ => ⟨S4000x2048, .i1⟩
  | .hbm, ⟨123, _⟩ => ⟨S4000x2048, .f32⟩
  | .hbm, ⟨124, _⟩ => ⟨S1x4000x2048, .f32⟩
  | .hbm, ⟨125, _⟩ => ⟨S1x4000x2048, .f32⟩
  | .hbm, ⟨126, _⟩ => ⟨S2x4000x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_cst : Ref sig .tc := ⟨.hbm, 43, rfl⟩
abbrev main_call2_v1 : Ref sig .tc := ⟨.hbm, 44, rfl⟩
abbrev main_call2_v2 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call3_v0 : Ref sig .tc := ⟨.hbm, 59, rfl⟩
abbrev main_call3_cst : Ref sig .tc := ⟨.hbm, 60, rfl⟩
abbrev main_call3_v1 : Ref sig .tc := ⟨.hbm, 61, rfl⟩
abbrev main_call3_v2 : Ref sig .tc := ⟨.hbm, 62, rfl⟩
abbrev main_v32 : Ref sig .tc := ⟨.hbm, 63, rfl⟩
abbrev main_cst_8 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call4_v0 : Ref sig .tc := ⟨.hbm, 73, rfl⟩
abbrev main_v40 : Ref sig .tc := ⟨.hbm, 74, rfl⟩
abbrev main_cst_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_cst_12 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_13 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_call5_v2 : Ref sig .tc := ⟨.hbm, 94, rfl⟩
abbrev main_v53 : Ref sig .tc := ⟨.hbm, 95, rfl⟩
abbrev main_cst_14 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_15 : Ref sig .tc := ⟨.hbm, 101, rfl⟩
abbrev main_v58 : Ref sig .tc := ⟨.hbm, 102, rfl⟩
abbrev main_v59 : Ref sig .tc := ⟨.hbm, 103, rfl⟩
abbrev main_cst_16 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_call6_v0 : Ref sig .tc := ⟨.hbm, 108, rfl⟩
abbrev main_call6_cst : Ref sig .tc := ⟨.hbm, 109, rfl⟩
abbrev main_call6_v1 : Ref sig .tc := ⟨.hbm, 110, rfl⟩
abbrev main_call6_v2 : Ref sig .tc := ⟨.hbm, 111, rfl⟩
abbrev main_v63 : Ref sig .tc := ⟨.hbm, 112, rfl⟩
abbrev main_cst_17 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_18 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_call7_v0 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩

abbrev nD : Nat := 1
abbrev τ : Topo := Topo.v7x

variable {F : FTy → Type} [FloatOps F]

class Facts₀ : Prop where
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  bcast_S_S4000x2048 : S_.BroadcastsInDim S4000x2048 (![] : Fin 0 → Fin S4000x2048.rank)
  bcast_S_S32768 : S_.BroadcastsInDim S32768 (![] : Fin 0 → Fin S32768.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x2048_0_1 : S4000x1.BroadcastsInDim S4000x2048 (![0, 1] : Fin 2 → Fin S4000x2048.rank)
  reducesTo_S4000x2048_S4000_d1 : S4000x2048.ReducesTo [1] S4000
  bcast_S_S4000x1 : S_.BroadcastsInDim S4000x1 (![] : Fin 0 → Fin S4000x1.rank)
  bcast_S4000x2048_S1x4000x2048_1_2 : S4000x2048.BroadcastsInDim S1x4000x2048 (![1, 2] : Fin 2 → Fin S1x4000x2048.rank)
  concatenates_S1x4000x2048_S1x4000x2048_S2x4000x2048_d0 : Shape.Concatenates [S1x4000x2048, S1x4000x2048] S2x4000x2048 0
  scatter_S4000x2048_S32768x1_S32768x2048_1_0_0_1_wf : ScatterDims.WF S4000x2048 S32768x1 S32768x2048 [1] [0] [0] 1
  scatter_S4000_S32768x1_S32768_n_0_0_1_wf : ScatterDims.WF S4000 S32768x1 S32768 [] [0] [0] 1

variable [Facts₀]

def scatter_S4000x2048_S32768x1_S32768x2048_1_0_0_1 : ScatterDims S4000x2048 S32768x1 S32768x2048 where
  updateWindowDims := [1]
  insertedWindowDims := [0]
  scatterDimsToOperandDims := [0]
  indexVectorDim := 1
  wf := scatter_S4000x2048_S32768x1_S32768x2048_1_0_0_1_wf
def scatter_S4000_S32768x1_S32768_n_0_0_1 : ScatterDims S4000 S32768x1 S32768 where
  updateWindowDims := []
  insertedWindowDims := [0]
  scatterDimsToOperandDims := [0]
  indexVectorDim := 1
  wf := scatter_S4000_S32768x1_S32768_n_0_0_1_wf

class Facts : Prop extends Facts₀ where

variable [Facts]
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.LibRows

open Idealize.ShloMosaic Idealize.ShloMosaic.ValueIdx

/-! ## Where an index word lands -/

/-- The entry of an axis of extent N that a 32-bit index word names when it is read as a signed integer
    and not clamped: the integer itself when it lies in [0, N), and nothing otherwise. -/
def landIx (N : Nat) (w : BitVec 32) : Option (Fin N) :=
  if h : 0 ≤ w.toInt ∧ w.toInt < N then some ⟨w.toInt.toNat, by omega⟩ else none

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (landIx N (idx (ix2 e 0))).map ix1 := by
  have h0 := vec_start0 d huw hiw hsd hivd idx e
  have w0 := vec_window0 d huw hiw hsd hivd e
  unfold ScatterDims.resultIdx? landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (landIx N (idx (ix2 e 0)) = some n ∧ j' = j) := by
    intro e j'
    rw [rows_resultIdx d huw hiw hsd hivd idx e j']
    cases hL : landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => landIx N (idx (ix2 e 0)) = some n), upd (ix1 e) := by
  have key : ∀ (e : Fin E), d.resultIdx? (ix1 e) idx = some (ix1 n)
      ↔ landIx N (idx (ix2 e 0)) = some n := by
    intro e
    rw [vec_resultIdx d huw hiw hsd hivd idx e]
    cases hL : landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => landIx N (idx (ix2 e 0)) = some n), upd (ix1 e) :=
  scatterAdd_vec d huw hiw hsd hivd x idx upd n

end Cert.LibRows

end
-- ==== Proof.SegSpec.lean ====
/-
  Segment sums of unit rows, two ways.

  A table x of 32768 rows and 2048 columns is divided row by row by the row's Euclidean length, the length kept
  above a small positive floor; row e is then added into row n of a 4000-row table when the e-th index word,
  read as a signed integer, is n, and dropped when the word names no row. The same table is reached by
  cutting the 32768 rows into 128 tiles of 256 and adding, tile after tile, the product of a 0/1 matrix
  (entry (n, q) is 1 exactly when row q of the tile carries class n's 32-bit pattern) with the tile's unit rows:
  multiplying by 1 keeps an extended real, multiplying by 0 gives 0, and a sum over all rows may be taken tile
  by tile in any grouping, so no finiteness is needed anywhere.
-/
import Idealize.ShloMosaic.PureOps.Ideal
import Idealize.ShloMosaic.PureOps.Ideal.Laws
import Idealize.ShloMosaic.Lib.ValueIdx
import proofs.«402125_j87625922773344_1_alg».proof.Proof.LibGatherScatterRows

noncomputable section

open scoped BigOperators

namespace Cert.SegSpec

open Idealize.ShloMosaic Idealize.ShloMosaic.ValueIdx Cert.LibRows

/-- The word whose value a row's length is kept above. -/
abbrev floorW : BitVec 32 := 0x2B8CBCCC#32

/-- Entry (q, j) of x divided by the Euclidean length of row q, that length kept above the floor. -/
def unitEntry {R : Nat} (x : (⟨2, ![R, 2048]⟩ : Shape).Idx → EReal) (q : Fin R) (j : Fin 2048) : EReal :=
  Ideal.div (x (ix2 q j)) (max (Ideal.sqrt (∑ l : Fin 2048, x (ix2 q l) * x (ix2 q l))) (Ideal.ofBits .f32 floorW))

/-- The 0/1 weight of class n for an index word: 1 when the word is n's 32-bit pattern. -/
def hit (n : Nat) (w : BitVec 32) : EReal := if BitVec.ofNat 32 n = w then 1 else 0

/-- For a class below 4000 the word is its pattern exactly when, read signed and unclamped, it lands on it. -/
theorem ofNat_eq_iff_land (n : Fin 4000) (w : BitVec 32) : BitVec.ofNat 32 n.val = w ↔ landIx 4000 w = some n := by
  have hn := n.isLt
  unfold landIx
  constructor
  · rintro rfl
    have ht : (BitVec.ofNat 32 n.val).toInt = (n.val : Int) := by
      have h1 := BitVec.toInt_eq_toNat_cond (BitVec.ofNat 32 n.val)
      rw [BitVec.toNat_ofNat, Nat.mod_eq_of_lt (by omega)] at h1
      split at h1
      · exact h1
      · omega
    rw [dif_pos (by rw [ht]; omega)]
    congr 1
    apply Fin.ext
    show (BitVec.ofNat 32 n.val).toInt.toNat = n.val
    rw [ht]; simp
  · intro h
    split at h
    · next hw =>
      have e : w.toInt.toNat = n.val := congrArg Fin.val (Option.some.inj h)
      have hnat : w.toInt = (w.toNat : Int) := by
        have h1 := BitVec.toInt_eq_toNat_cond w
        have h2 := w.isLt
        have h3 := hw.1
        split at h1
        · exact h1
        · omega
      have : w.toNat = n.val := by omega
      rw [← this]
      simp
    · exact absurd h (by simp)

theorem hit_eq_land (n : Fin 4000) (w : BitVec 32) : hit n.val w = if landIx 4000 w = some n then 1 else 0 := by
  unfold hit
  by_cases h : landIx 4000 w = some n
  · rw [if_pos h, if_pos ((ofNat_eq_iff_land n w).2 h)]
  · rw [if_neg h, if_neg (fun h' => h ((ofNat_eq_iff_land n w).1 h'))]

/-- Row q of tile s of the long axis. -/
def tileRow (s : Fin 128) (q : Fin 256) : Fin 32768 := ⟨256 * s.val + q.val, by have := s.isLt; have := q.isLt; omega⟩

/-- A sum over the 32768 rows, taken tile by tile. -/
theorem sum_tiles {β : Type*} [AddCommMonoid β] (f : Fin 32768 → β) :
    ∑ e, f e = ∑ s : Fin 128, ∑ q : Fin 256, f (tileRow s q) := by
  rw [← (finProdFinEquiv (m := 128) (n := 256)).sum_comp f, Fintype.sum_prod_type]
  refine Finset.sum_congr rfl fun s _ => Finset.sum_congr rfl fun q _ => congrArg f (Fin.ext ?_)
  show q.val + 256 * s.val = 256 * s.val + q.val
  omega

/-- The sum of the rows whose word lands on class n is, tile by tile, the sum of weight times row. -/
theorem seg_eq_tiles (a : Fin 32768 → EReal) (w : Fin 32768 → BitVec 32) (n : Fin 4000) :
    ∑ e ∈ Finset.univ.filter (fun e : Fin 32768 => landIx 4000 (w e) = some n), a e
      = ∑ s : Fin 128, ∑ q : Fin 256, hit n.val (w (tileRow s q)) * a (tileRow s q) := by
  rw [Finset.sum_filter, sum_tiles]
  refine Finset.sum_congr rfl fun s _ => Finset.sum_congr rfl fun q _ => ?_
  rw [hit_eq_land]
  split
  · rw [one_mul]
  · rw [zero_mul]

/-- THE SEGMENT SUMS OF THE UNIT ROWS: entry (n, j) is zero plus the sum, over the rows e of x whose index word lands on
    class n, of unit row e at column j. -/
def segSum (x : (⟨2, ![32768, 2048]⟩ : Shape).Idx → EReal) (w : (⟨1, ![32768]⟩ : Shape).Idx → BitVec 32)
    (y : (⟨2, ![4000, 2048]⟩ : Shape).Idx) : EReal :=
  Ideal.ofBits .f32 0x00000000#32
    + ∑ e ∈ Finset.univ.filter (fun e : Fin 32768 => landIx 4000 (w (ix1 e)) = some ⟨(y 0).val, idx2_lt0 y⟩),
        unitEntry x e ⟨(y 1).val, idx2_lt1 y⟩

/-- The same, tile by tile, as sums of weight times unit row. -/
theorem segSum_tiles (x : (⟨2, ![32768, 2048]⟩ : Shape).Idx → EReal) (w : (⟨1, ![32768]⟩ : Shape).Idx → BitVec 32)
    (y : (⟨2, ![4000, 2048]⟩ : Shape).Idx) :
    segSum x w y = Ideal.ofBits .f32 0x00000000#32
      + ∑ s : Fin 128, ∑ q : Fin 256, hit (y 0).val (w (ix1 (tileRow s q))) * unitEntry x (tileRow s q) ⟨(y 1).val, idx2_lt1 y⟩ := by
  unfold segSum
  rw [seg_eq_tiles (fun e => unitEntry x e ⟨(y 1).val, idx2_lt1 y⟩) (fun e => w (ix1 e)) ⟨(y 0).val, idx2_lt0 y⟩]

end Cert.SegSpec

end
-- ==== Proof.LibPlainDot.lean ====
/-
  A plain matrix product read at an index.

  For the dimension numbers of an M×K by K×N product (the left operand contracted on its second axis, the right
  on its first, no batch axes) the contraction at result entry (r, j) runs over the K pairs
  (left (r, q), right (q, j)). Stated for arbitrary extents, from the dimension numbers alone, and then for the
  matrix unit's product into a zero accumulator over the extended reals.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

section Plain
variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])
include hlc hrc hln hrn hlb hrb

/-- The left operand's row is the result's row. -/
theorem lhs_row (j : (⟨2, ![M, N]⟩ : Shape).Idx) (k : d.contr.Idx) : (d.lhsIdx j k 0).val = (j 0).val := by
  obtain ⟨lc, rc, ln, rn, lb, rb, wf⟩ := d
  simp only at hlc hrc hln hrn hlb hrb
  subst hlc hrc hln hrn hlb hrb
  unfold DotDims.lhsIdx
  rw [dif_neg (by simp), dif_pos (by simp)]
  rfl

/-- The right operand's column is the result's column. -/
theorem rhs_col (j : (⟨2, ![M, N]⟩ : Shape).Idx) (k : d.contr.Idx) : (d.rhsIdx j k 1).val = (j 1).val := by
  obtain ⟨lc, rc, ln, rn, lb, rb, wf⟩ := d
  simp only at hlc hrc hln hrn hlb hrb
  subst hlc hrc hln hrn hlb hrb
  unfold DotDims.rhsIdx
  rw [dif_neg (by simp), dif_pos (by simp)]
  rfl

/-- The contraction shape has one axis, -/
theorem contr_rank : d.contr.rank = 1 := by rw [d.rank_contr, hlc]; rfl

/-- of extent K. -/
theorem contr_size : d.contr.size ⟨0, by rw [contr_rank d hlc hrc hln hrn hlb hrb]; exact Nat.one_pos⟩ = K := by
  obtain ⟨lc, rc, ln, rn, lb, rb, wf⟩ := d
  simp only at hlc hrc hln hrn hlb hrb
  subst hlc hrc hln hrn hlb hrb
  rfl

/-- The contraction at result entry (r, j) is the sum over q of left (r, q) times right (q, j). -/
theorem sum_contr {β : Type*} [AddCommMonoid β] (f : (⟨2, ![M, K]⟩ : Shape).Idx → (⟨2, ![K, N]⟩ : Shape).Idx → β) (r : Fin M) (j : Fin N) :
    ∑ k : d.contr.Idx, f (d.lhsIdx (ix2 r j) k) (d.rhsIdx (ix2 r j) k) = ∑ q : Fin K, f (ix2 r q) (ix2 q j) := by
  have hr := contr_rank d hlc hrc hln hrn hlb hrb
  have hs := contr_size d hlc hrc hln hrn hlb hrb
  rw [← Equiv.sum_comp (contrEquiv1 d K hr hs).symm]
  refine Finset.sum_congr rfl fun q _ => ?_
  have e1 : d.lhsIdx (ix2 r j) ((contrEquiv1 d K hr hs).symm q) = ix2 r q := by
    funext a
    apply Fin.ext
    match a with
    | ⟨0, _⟩ => exact lhs_row d hlc hrc hln hrn hlb hrb _ _
    | ⟨1, _⟩ => exact (d.lhsIdx_val_of_single hlc _ _).trans (contrEquiv1_symm_val d K hr hs q)
  have e2 : d.rhsIdx (ix2 r j) ((contrEquiv1 d K hr hs).symm q) = ix2 q j := by
    funext a
    apply Fin.ext
    match a with
    | ⟨0, _⟩ => exact (d.rhsIdx_val_of_single hrc _ _).trans (contrEquiv1_symm_val d K hr hs q)
    | ⟨1, _⟩ => exact rhs_col d hlc hrc hln hrn hlb hrb _ _
  rw [e1, e2]

/-- The matrix unit's product into a zero accumulator, over the extended reals, at entry (r, j). -/
theorem matmul_zero_apply {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ q : Fin K, lhs (ix2 r q) * rhs (ix2 q j) := by
  rw [Ideal.matmul_constant_zero_apply]
  exact sum_contr d hlc hrc hln hrn hlb hrb (fun a b => lhs a * rhs b) r j

end Plain

end Cert.LibPlainDot

end
-- ==== Proof.TilePayload.lean ====
/-
  What one pass over a tile adds to a slab of the accumulator.

  A pass takes a tile of 256 feature rows and their 256 index words, and a slab of 400 accumulator rows
  (rows 400k … 400k + 399). It divides each feature row by its Euclidean length (kept above the floor), builds
  the 400×256 matrix whose entry (r, q) is 1 when word q is the 32-bit pattern of 400k + r and 0 otherwise,
  multiplies, and adds the product to what the slab held: entry (r, j) of the result is the old entry plus
  the sum over q of weight (400k + r, word q) times unit row q at column j. Rounding to the narrow float
  format in between is the identity on the extended reals.
-/
import proofs.«402125_j87625922773344_1_alg».proof.Proof.Gen.KernelIdeal.Skeleton
import proofs.«402125_j87625922773344_1_alg».proof.Proof.SegSpec
import proofs.«402125_j87625922773344_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileVal

open Idealize.ShloMosaic Idealize.ShloMosaic.ValueIdx Cert.KernelIdeal Cert.KernelIdeal.Gen Cert.SegSpec

/-- The loop has ten trips, in either launch. -/
theorem trips_eq : k0_t1_loop.trips = 10 := by decide
theorem trips_eq1 : k1_t1_loop.trips = 10 := by decide

theorem hz2 : (![0, 0] : Fin 2 → Nat) = fun _ => 0 := funext fun a => by fin_cases a <;> rfl
theorem hz1 : (![0] : Fin 1 → Nat) = fun _ => 0 := funext fun a => by fin_cases a; rfl

/-- What a tile (its feature rows x0, its index words x1) adds to entry y of the accumulator: the sum over the tile's
    rows q of the weight of y's class for word q times unit row q at y's column. -/
def tileAdd (x0 : Vec Ideal S256x2048 .f32) (x1 : Vec Ideal S256 .i32) (y : S4000x2048.Idx) : EReal :=
  ∑ q : Fin 256, hit (y 0).val (x1 (ix1 q)) * unitEntry x0 q ⟨(y 1).val, idx2_lt1 y⟩

/-- The first class of slab k, as the kernel computes it from the trip counter, is 400k. -/
theorem slab_word : ∀ k : Fin k0_t1_loop.trips,
    Scalar.muli (Scalar.addi (0#32) (Scalar.muli (Scf.iv 0#32 1#32 k.val) 1#32)) 400#32 = BitVec.ofNat 32 (400 * k.val) :=
  (by decide : ∀ k : Fin k0_t1_loop.trips, _)

/-- A tile's feature rows, each divided by its length kept above the floor, read at (q, j). -/
theorem unitRows_apply (x : FVec Ideal S256x2048 .f32) (h1 : S256x2048.Reduces [1] S256) (h2) (h3)
    (hc : S256.ShapeCasts S256x1) (hb : S256x1.Broadcasts S256x2048) (ht : FTy.bits .bf16 < FTy.bits .f32)
    (q : Fin 256) (j : Fin 2048) :
    (truncf .bf16 (divf x (broadcastTo S256x2048 (maximumf (sqrt (shapeCast S256x1
        (multiReduction .add [1] S256 (mulf x x) 0x00000000#32 h1 h2 h3) hc))
        (broadcast S256x1 (FloatOps.ofBits .f32 0x2B8CBCCC#32))) hb)) ht : FVec Ideal S256x2048 .bf16) (ix2 q j)
      = unitEntry x q j := by
  rw [truncf_apply, divf_apply]
  rw [broadcastTo_apply _ hb (ix2 q j) (ix2 q (0 : Fin 1)) (fun a => by
    match a with
    | ⟨0, _⟩ => rfl
    | ⟨1, _⟩ => rfl)]
  rw [maximumf_apply, broadcast_apply]
  show Ideal.div _ (max (Ideal.sqrt (shapeCast S256x1 _ hc (ix2 q (0 : Fin 1)))) _) = _
  rw [shapeCast_apply _ hc (ix2 q (0 : Fin 1)) (ix1 q) (by
    rw [Shape.rowMajor_val_one, Shape.rowMajor_val_two]; show q.val = q.val * 1 + 0; omega)]
  rw [Ideal.multiReduction_add_single]
  unfold unitEntry
  congr 3
  refine Finset.sum_congr rfl fun l _ => ?_
  rw [mulf_apply]
  have e : h1.lift (ix1 q) l = ix2 q l := by
    funext a
    match a with
    | ⟨0, _⟩ => rfl
    | ⟨1, _⟩ => rfl
  rw [e]
  rfl

/-- The 0/1 matrix of slab k read at (r, q): the weight of class 400k + r for the tile's q-th index word. -/
theorem weights_apply (ids : IVec S256 32) (k : Fin k0_t1_loop.trips) (hi : S400x256.Iotas .tc 32 [0])
    (hc : S256.ShapeCasts S1x256) (hb : S1x256.Broadcasts S400x256) (hn : 1 < 32) (ht : FTy.bits .bf16 < FTy.bits .f32)
    (r : Fin 400) (q : Fin 256) :
    (truncf .bf16 (sitofp .f32 (extui 32 (cmpi .eq
        (addi (broadcast S400x256 (Scalar.muli (Scalar.addi (0#32) (Scalar.muli (Scf.iv 0#32 1#32 k.val) 1#32)) 400#32))
          (iota .tc S400x256 32 [0] hi))
        (broadcastTo S400x256 (shapeCast S1x256 ids hc) hb)) hn)) ht : FVec Ideal S400x256 .bf16) (ix2 r q)
      = hit (400 * k.val + r.val) (ids (ix1 q)) := by
  rw [truncf_apply, sitofp_apply, extui_apply]
  show FloatOps.sitofp .f32 ((IntOp.cmpi .eq (IntOp.addi _ (iota .tc S400x256 32 [0] hi (ix2 r q))) (broadcastTo S400x256 (shapeCast S1x256 ids hc) hb (ix2 r q))).setWidth 32) = _
  rw [iota_single_apply, slab_word k]
  rw [broadcastTo_1b_ab_apply (shapeCast S1x256 ids hc) hb r q]
  rw [shapeCast_apply ids hc (ix2 (0 : Fin 1) q) (ix1 q) (by
    rw [Shape.rowMajor_val_one, Shape.rowMajor_val_two]; show q.val = 0 * 256 + q.val; omega)]
  show FloatOps.sitofp .f32 ((BitVec.ofBool (BitVec.ofNat 32 (400 * k.val) + BitVec.ofNat 32 r.val == ids (ix1 q))).setWidth 32) = _
  rw [← BitVec.ofNat_add]
  unfold hit
  by_cases h : BitVec.ofNat 32 (400 * k.val + r.val) = ids (ix1 q)
  · rw [if_pos h, h, beq_self_eq_true]
    show (((BitVec.ofBool true).setWidth 32).toInt : ℝ) = (1 : EReal)
    norm_num
    decide
  · rw [if_neg h, beq_eq_false_iff_ne.mpr h]
    show ((((BitVec.ofBool false).setWidth 32).toInt : ℝ) : EReal) = 0
    have : ((BitVec.ofBool false).setWidth 32).toInt = 0 := by decide
    rw [this]; simp

/-- ONE PASS: entry (r, j) of what a pass over slab k stores is the slab's old entry plus the tile's contribution to
    class 400k + r at column j. -/
theorem pass_apply (v3 : Vec Ideal S256x2048 .f32) (v13 : Vec Ideal S256 .i32) (k : Fin k0_t1_loop.trips)
    (v30 : Vec Ideal S400x2048 .f32) (r : Fin 400) (j : Fin 2048) :
    k0_pay2 v3 v13 k v30 (ix2 r j)
      = v30 (ix2 r j) + ∑ q : Fin 256, hit (400 * k.val + r.val) (v13 (ix1 q)) * unitEntry v3 q j := by
  unfold k0_pay2
  rw [addf_apply, shapeCast_self]
  congr 1
  simp only [matmul]
  rw [Cert.LibPlainDot.matmul_zero_apply dot_S400x256_S256x2048_S400x2048_1_0_0_1_n_n rfl rfl rfl rfl rfl rfl]
  refine Finset.sum_congr rfl fun q _ => ?_
  rw [weights_apply]
  exact congrArg (hit (400 * k.val + r.val) (v13 (ix1 q)) * ·) (unitRows_apply v3 _ _ _ _ _ _ q j)

/-- The second launch runs the same pass. -/
theorem pass_apply1 (v3 : Vec Ideal S256x2048 .f32) (v13 : Vec Ideal S256 .i32) (k : Fin k1_t1_loop.trips)
    (v30 : Vec Ideal S400x2048 .f32) (r : Fin 400) (j : Fin 2048) :
    k1_pay2 v3 v13 k v30 (ix2 r j)
      = v30 (ix2 r j) + ∑ q : Fin 256, hit (400 * k.val + r.val) (v13 (ix1 q)) * unitEntry v3 q j :=
  pass_apply v3 v13 k v30 r j

end Cert.KernelIdeal.TileVal

end
-- ==== Proof.SlabPasses.lean ====
/-
  The body of the first launch at one grid point, read as values.

  The body's loop makes ten passes, pass k over accumulator rows 400k … 400k + 399. The passes write disjoint
  slabs, so what pass k loads is what the accumulator held when the loop began, and the ten stored slabs together
  are ONE function of the accumulator's index: the entry the loop found plus the tile's contribution to that
  class and column. At the first grid point the body first fills the accumulator with zeros, at every later one
  it starts from what the point before left.
-/
import proofs.«402125_j87625922773344_1_alg».proof.Proof.Gen.KernelIdeal.Frame
import proofs.«402125_j87625922773344_1_alg».proof.Proof.TilePayload
import Idealize.ShloMosaic.Lib.Pipeline.Value

noncomputable section

open scoped BigOperators

namespace Cert.KernelIdeal.SlabVal

open Idealize.ShloMosaic Idealize.ShloMosaic.ValueIdx Idealize.ShloMosaic.TcCoe Idealize.SL.Sem Idealize.ShloMosaic.Tactic
open Cert.KernelIdeal Cert.KernelIdeal.Gen Cert.SegSpec Cert.KernelIdeal.TileVal

/-- Pass k starts at row 400k, column 0. -/
theorem off_eq : ∀ k : Fin k0_t1_loop.trips, k0_off1 k = ![400 * k.val, 0] := by decide

/-- Rows 400k … 400k + 399 of the accumulator, every column. -/
abbrev slab (k : Fin k0_t1_loop.trips) : Rect S4000x2048 := Rect.unit (k0_off1 k) S400x2048.size (k0_off1_inb k)

/-- Membership in slab k is a condition on the row alone. -/
theorem mem_slab (k : Fin k0_t1_loop.trips) (y : S4000x2048.Idx) :
    y ∈ (slab k).set ↔ 400 * k.val ≤ (y 0).val ∧ (y 0).val < 400 * k.val + 400 := by
  rw [Rect.mem_set_unit, off_eq k]
  constructor
  · intro h; exact h 0
  · intro h a
    match a with
    | ⟨0, _⟩ => exact h
    | ⟨1, _⟩ => exact ⟨Nat.zero_le _, by show (y 1).val < 0 + 2048; have := idx2_lt1 y; omega⟩

/-- Where entry (r, j) of slab k sits in the accumulator. -/
theorem slab_emb (k : Fin k0_t1_loop.trips) (r : Fin 400) (j : Fin 2048) :
    (slab k).emb (ix2 r j) = ix2 ⟨400 * k.val + r.val, by have h1 := k.isLt; have h2 := trips_eq; have := r.isLt; omega⟩ j := by
  funext a
  apply Fin.ext
  match a with
  | ⟨0, _⟩ => show (k0_off1 k) 0 + 1 * r.val = 400 * k.val + r.val; rw [off_eq k]; show 400 * k.val + 1 * r.val = _; omega
  | ⟨1, _⟩ => show (k0_off1 k) 1 + 1 * j.val = j.val; rw [off_eq k]; show 0 + 1 * j.val = _; omega

section Passes

variable (𝒱 : Variants) (c : Dev nD) (bd : Option 𝒱.V) (i : grid0.Coords)
  (arg1 : Memref sig .tc .vmem S256x2048 .f32) (harg1 : arg1.IsWhole) (arg2 : Memref sig .tc .vmem S256 .i32) (harg2 : arg2.IsWhole)
  (arg3 : Memref sig .tc .vmem S4000x2048 .f32) (harg3 : arg3.IsWhole)

/-- One pass stores one slab: what it loaded, with the tile's contribution added. -/
theorem tripL_eq {F : FTy → Type} [FloatOps F] (v3 : Vec F S256x2048 .f32) (v13 : Vec F S256 .i32) (k : Fin k0_t1_loop.trips)
    (f : BufTy.Contents (Elt F) arg3.view.ty) :
    tripL_k0_t1 (F := F) 𝒱 c bd i arg1 harg1 arg2 harg2 arg3 harg3 v3 v13 k f
      = [⟨slab k, k0_pay2 v3 v13 k (View.readAt (Elt F) arg3.view (slab k).toLoadRect f)⟩] := by
  unfold tripL_k0_t1 trip_k0_t1
  rfl

variable (v3 : Vec Ideal S256x2048 .f32) (v13 : Vec Ideal S256 .i32) (G : BufTy.Contents (Elt Ideal) arg3.view.ty)

/-- After k passes: the stored slabs lie in the rows below 400k, cover them, and each is a block of the one function
    "what the loop found, plus the tile's contribution". -/
theorem passes_inv : ∀ k : Nat, k ≤ 10 →
    (∀ p ∈ pb_k0_t1 (F := Ideal) 𝒱 c bd i arg1 harg1 arg2 harg2 arg3 harg3 v3 v13 G k, ∀ y, y ∈ p.1.set → (y 0).val < 400 * k)
    ∧ (∀ p ∈ pb_k0_t1 (F := Ideal) 𝒱 c bd i arg1 harg1 arg2 harg2 arg3 harg3 v3 v13 G k, ∀ x : p.1.shape.Idx,
        p.2 x = arg3.view.read (Elt Ideal) G (p.1.emb x) + tileAdd v3 v13 (p.1.emb x))
    ∧ (∀ y : S4000x2048.Idx, (y 0).val < 400 * k →
        ∃ p ∈ pb_k0_t1 (F := Ideal) 𝒱 c bd i arg1 harg1 arg2 harg2 arg3 harg3 v3 v13 G k, y ∈ p.1.set)
  | 0, _ => ⟨fun p hp => absurd hp List.not_mem_nil, fun p hp => absurd hp List.not_mem_nil, fun y hy => absurd hy (Nat.not_lt_zero _)⟩
  | k + 1, hk => by
    obtain ⟨ih1, ih2, ih3⟩ := passes_inv k (by omega)
    have hkt : k < k0_t1_loop.trips := by rw [trips_eq]; omega
    have hL : pb_k0_t1 (F := Ideal) 𝒱 c bd i arg1 harg1 arg2 harg2 arg3 harg3 v3 v13 G (k + 1)
        = ⟨slab ⟨k, hkt⟩, k0_pay2 v3 v13 ⟨k, hkt⟩ (View.readAt (Elt Ideal) arg3.view (slab ⟨k, hkt⟩).toLoadRect
            (arg3.view.writes (Elt Ideal) G (pb_k0_t1 (F := Ideal) 𝒱 c bd i arg1 harg1 arg2 harg2 arg3 harg3 v3 v13 G k)))⟩
          :: pb_k0_t1 (F := Ideal) 𝒱 c bd i arg1 harg1 arg2 harg2 arg3 harg3 v3 v13 G k := by
      have h := pb_k0_t1_succ (F := Ideal) 𝒱 c bd i arg1 harg1 arg2 harg2 arg3 harg3 v3 v13 G ⟨k, hkt⟩
      rw [tripL_eq] at h
      exact h
    refine ⟨?_, ?_, ?_⟩
    · intro p hp y hy
      rw [hL] at hp
      rcases List.mem_cons.mp hp with rfl | hp
      · have := (mem_slab ⟨k, hkt⟩ y).mp hy
        dsimp only at this
        omega
      · have := ih1 p hp y hy; omega
    · intro p hp x
      rw [hL] at hp
      rcases List.mem_cons.mp hp with rfl | hp
      · obtain ⟨r, j, rfl⟩ : ∃ (r : Fin 400) (j : Fin 2048), x = ix2 r j := ⟨x 0, x 1, eq_ix2 x⟩
        show k0_pay2 v3 v13 ⟨k, hkt⟩ _ (ix2 r j) = _
        rw [pass_apply]
        congr 1
        · rw [View.readAt_apply]
          refine View.read_writes_apply_of_forall_not_mem _ _ _ _ (fun p' hp' hy => ?_)
          have h1 := ih1 p' hp' _ hy
          have h2 : ((slab ⟨k, hkt⟩).toLoadRect.idx (ix2 r j)) = (slab ⟨k, hkt⟩).emb (ix2 r j) := rfl
          rw [h2, slab_emb] at h1
          dsimp only at h1
          omega
        · show _ = tileAdd v3 v13 ((slab ⟨k, hkt⟩).emb (ix2 r j))
          rw [slab_emb]
          rfl
      · exact ih2 p hp x
    · intro y hy
      rw [hL]
      by_cases h : (y 0).val < 400 * k
      · obtain ⟨p, hp, hyp⟩ := ih3 y h
        exact ⟨p, List.mem_cons_of_mem _ hp, hyp⟩
      · exact ⟨_, List.mem_cons_self, (mem_slab ⟨k, hkt⟩ y).mpr ⟨by dsimp only; omega, by dsimp only; omega⟩⟩

/-- So after the ten passes the accumulator, read through any view of its shape over any earlier contents, holds at
    every entry what the loop found there plus the tile's contribution. -/
theorem passes_read {sig' : RefSig} {κ' : Kind} {sp' : Space} (v' : View sig' κ' sp' S4000x2048 .f32) (f' : v'.ty.Contents (Elt Ideal))
    (y : S4000x2048.Idx) :
    v'.read (Elt Ideal) (v'.writes (Elt Ideal) f' (pb_k0_t1 (F := Ideal) 𝒱 c bd i arg1 harg1 arg2 harg2 arg3 harg3 v3 v13 G 10)) y
      = arg3.view.read (Elt Ideal) G y + tileAdd v3 v13 y := by
  obtain ⟨h1, h2, h3⟩ := passes_inv 𝒱 c bd i arg1 harg1 arg2 harg2 arg3 harg3 v3 v13 G 10 (le_refl _)
  have hcov := h3 y (by have := idx2_lt0 y; omega)
  rw [View.read_writes_apply_eq_canon v' f' y _ hcov]
  exact View.canon_apply_of_pieces (fun y => arg3.view.read (Elt Ideal) G y + tileAdd v3 v13 y) _ h2 y hcov

end Passes

/-- The loop's trip count as the body computes it. -/
theorem trips_lit : Scf.trips (0#32) (Scalar.addi 0#32 10#32) 1#32 = 10 := by decide

section Cases

variable (c : Dev nD) (i : grid0.Coords)
  (arg1 : Memref sig .tc .vmem S256x2048 .f32) (harg1 : arg1.IsWhole) (arg2 : Memref sig .tc .vmem S256 .i32) (harg2 : arg2.IsWhole)
  (arg3 : Memref sig .tc .vmem S4000x2048 .f32) (harg3 : arg3.IsWhole)

/-- A LATER GRID POINT: the accumulator holding xo, the body leaves xo plus the tile's contribution, entry by entry. -/
theorem out_B (hc : ¬cond0_0 i) (x0 : Vec Ideal S256x2048 .f32) (x1 : Vec Ideal S256 .i32) (xo : Vec Ideal S4000x2048 .f32)
    (y : S4000x2048.Idx) :
    out0_B_2 (F := Ideal) c i arg1 harg1 arg2 harg2 arg3 harg3 hc x0 x1 xo y = xo y + tileAdd x0 x1 y := by
  unfold out0_B_2 kernelRun0_B
  dsimp only
  simp only [View.readAt_eq_ld, harg1.read_unread, harg2.read_unread, View.ld_unit_zero (S := S256x2048) hz2,
    View.ld_unit_zero (S := S256) hz1]
  rw [trips_lit, passes_read, harg3.read_unread]

/-- THE FIRST GRID POINT: the body fills the accumulator with zeros and leaves zero plus the tile's contribution. -/
theorem out_A (hc : cond0_0 i) (x0 : Vec Ideal S256x2048 .f32) (x1 : Vec Ideal S256 .i32) (y : S4000x2048.Idx) :
    out0_A_2 (F := Ideal) c i arg1 harg1 arg2 harg2 arg3 harg3 hc x0 x1 y = Ideal.ofBits .f32 0x00000000#32 + tileAdd x0 x1 y := by
  unfold out0_A_2 kernelRun0_A
  dsimp only
  sl_unfold_words
  simp only [View.readAt_eq_ld, harg1.read_unread, harg2.read_unread, View.ld_unit_zero (S := S256x2048) hz2,
    View.ld_unit_zero (S := S256) hz1]
  rw [trips_lit, View.writes_append, passes_read]
  congr 1
  rw [View.read_writes_junk_apply_eq_canon, View.canon_unit_zero (S := S4000x2048) hz2]
  rfl

end Cases

end Cert.KernelIdeal.SlabVal

end
-- ==== Proof.GridSum.lean ====
/-
  The first launch over its 128 grid points: its result array.

  Grid point t stages tile t of the features (rows 256t … 256t + 255) and of the index words. The accumulator
  block never moves and is written back after the last point only, so what the result array ends holding is what
  the accumulator holds after point 127: zero plus the 128 tiles' contributions, which re-indexed over all 32768
  rows is the segment sum of the unit rows.
-/
import proofs.«402125_j87625922773344_1_alg».proof.Proof.SlabPasses
import Idealize.ShloMosaic.Lib.Pipeline.Value

noncomputable section

open scoped BigOperators

namespace Cert.KernelIdeal.GridVal

open Idealize.ShloMosaic Idealize.ShloMosaic.ValueIdx Idealize.ShloMosaic.TcCoe Idealize.SL.Sem
open Idealize.ShloMosaic.Pipeline (Dat)
open Cert.KernelIdeal Cert.KernelIdeal.Gen Cert.SegSpec Cert.KernelIdeal.TileVal Cert.KernelIdeal.SlabVal

variable (V : (c : Dev nD) → (b : Ref sig .tc) → Buf (Elt Ideal) ((c : Thread nD τ).loc b))

/-- The feature array and the index words as the launch finds them. -/
abbrev featArr (c : Dev nD) : Vec Ideal S32768x2048 .f32 := V c main_arg0
abbrev wordArr (c : Dev nD) : Vec Ideal S32768 .i32 := V c main_arg2

/-- Tile t of each, as the body's two loads read them. -/
abbrev feat (c : Dev nD) (t : Fin cfg0.N) : Vec Ideal S256x2048 .f32 := iblk0 V c 0 t
abbrev word (c : Dev nD) (t : Fin cfg0.N) : Vec Ideal S256 .i32 := iblk0 V c 1 t

theorem idx_feat : ∀ t : Fin cfg0.N, win0_0.index t 0 = t.val ∧ win0_0.index t 1 = 0 :=
  (by decide +kernel : ∀ t : Fin grid0.N, win0_0.index t 0 = t.val ∧ win0_0.index t 1 = 0)
theorem idx_word : ∀ t : Fin cfg0.N, win0_1.index t 0 = t.val :=
  (by decide +kernel : ∀ t : Fin grid0.N, win0_1.index t 0 = t.val)

theorem N128 : cfg0.N = 128 := N_0

/-- Row q of tile t is row 256t + q of the array. -/
theorem feat_apply (c : Dev nD) (t : Fin cfg0.N) (q : Fin 256) (l : Fin 2048) :
    feat V c t (ix2 q l) = featArr V c (ix2 (tileRow ⟨t.val, lt_of_lt_of_eq t.isLt N128⟩ q) l) := by
  unfold feat iblk0
  rw [View.read_apply]
  show V c main_arg0 _ = V c main_arg0 _
  congr 1
  funext a
  apply Fin.ext
  match a with
  | ⟨0, _⟩ => show win0_0.index t 0 * 256 + 1 * q.val = 256 * t.val + q.val; rw [(idx_feat t).1]; omega
  | ⟨1, _⟩ => show win0_0.index t 1 * 2048 + 1 * l.val = l.val; rw [(idx_feat t).2]; omega

theorem word_apply (c : Dev nD) (t : Fin cfg0.N) (q : Fin 256) :
    word V c t (ix1 q) = wordArr V c (ix1 (tileRow ⟨t.val, lt_of_lt_of_eq t.isLt N128⟩ q)) := by
  unfold word iblk0
  rw [View.read_apply]
  show V c main_arg2 _ = V c main_arg2 _
  congr 1
  funext a
  apply Fin.ext
  match a with
  | ⟨0, _⟩ => show win0_1.index t 0 * 256 + 1 * q.val = 256 * t.val + q.val; rw [idx_word t]; omega

/-- A tile's unit rows are the array's. -/
theorem unit_feat (c : Dev nD) (t : Fin cfg0.N) (q : Fin 256) (j : Fin 2048) :
    unitEntry (feat V c t) q j = unitEntry (featArr V c) (tileRow ⟨t.val, lt_of_lt_of_eq t.isLt N128⟩ q) j := by
  unfold unitEntry
  rw [feat_apply]
  congr 3
  refine Finset.sum_congr rfl fun l _ => ?_
  rw [feat_apply]

/-- What grid point n adds to the accumulator (nothing past the grid). -/
def pointAdd (c : Dev nD) (n : ℕ) (y : S4000x2048.Idx) : EReal :=
  if h : n < cfg0.N then tileAdd (feat V c ⟨n, h⟩) (word V c ⟨n, h⟩) y else 0

/-- After grid point n the accumulator holds zero plus the contributions of points 0 … n. -/
theorem outsAt_eq (c : Dev nD) : ∀ (n : ℕ) (h : n < cfg0.N) (y : S4000x2048.Idx),
    outsAt0 V c n h y = Ideal.ofBits .f32 0x00000000#32 + ∑ s ∈ Finset.range (n + 1), pointAdd V c s y
  | 0, h, y => by
    rw [outsAt0_A V c ⟨0, h⟩ (Nat.zero_mod _), out_A, Finset.sum_range_one]
    unfold pointAdd
    rw [dif_pos h]
  | n + 1, h, y => by
    have hN : cfg0.N = 128 := N128
    have hB : ¬(⟨n + 1, h⟩ : Fin cfg0.N).val % 128 = 0 := by dsimp only; omega
    rw [outsAt0_B V c ⟨n + 1, h⟩ hB, out_B]
    show outsAt0 V c n _ y + _ = _
    rw [outsAt_eq c n, Finset.sum_range_succ _ (n + 1), add_assoc]
    congr 2
    unfold pointAdd
    rw [dif_pos h]

/-- The last grid point. -/
abbrev tLast : Fin cfg0.N := ⟨127, by rw [N128]; decide⟩

theorem h127 : 127 < cfg0.N := by rw [N128]; decide

/-- The accumulator after the last point is the segment sum of the unit rows of the feature array by the index words:
    the 128 tiles' contributions, re-indexed over all rows. -/
theorem last_eq (c : Dev nD) : outsAt0 V c 127 h127 = fun y => segSum (featArr V c) (wordArr V c) y := by
  funext y
  rw [outsAt_eq, segSum_tiles]
  show _ + ∑ s ∈ Finset.range 128, pointAdd V c s y = _
  rw [Finset.sum_range (fun s => pointAdd V c s y)]
  congr 1
  refine Finset.sum_congr rfl fun s _ => ?_
  unfold pointAdd
  rw [dif_pos (lt_of_lt_of_eq s.isLt N128.symm)]
  unfold tileAdd
  refine Finset.sum_congr rfl fun q _ => ?_
  rw [word_apply, unit_feat]

-- the accumulator's contents are a recursion on the grid point: from here on it is cited through `last_eq`, never opened
attribute [local irreducible] outsAt0

/-- The one write-back, after point 127, writes the accumulator whole: the block at index (0, 0), of the array's own
    sizes, is the array. Stated for any name R of the accumulator's contents after that point. -/
theorem flushed_eq (c : Dev nD) (R : Buf (Elt Ideal) ((c : Thread nD τ).loc main_v0)) (hR : outsAt0 V c 127 h127 = R)
    (t : Fin cfg0.N) (hf : (cfg0.win 2).flush t = true) :
    (dat0 V c).flushed 2 t = ((cfg0.win 2).blk t).view.read (Elt Ideal) R := by
  have hN : cfg0.N = 128 := N128
  have h127' : t.val = 127 := by have := (flush0_2 t).mp hf; have := t.isLt; omega
  obtain rfl : t = tLast := Fin.ext h127'
  show (cfg0.win 2).cut (grid0.coords tLast) ((dat0 V c).after 2 tLast) = _
  rw [after0_2]
  show (cfg0.win 2).cut (grid0.coords tLast) (outsAt0 V c 127 h127) = _
  rw [hR]
  have hz' : (fun a => win0_2.index tLast a * main_v0.ty.shape.size a) = fun _ => 0 := funext fun a => by fin_cases a <;> decide +kernel
  exact (Memref.read_access_unit_zero (Elt Ideal) main_v0 hz' (fun a => by rw [congrFun hz' a]; simp) R).symm

/-- So the result array ends holding the accumulator after point 127 (that point's block covers it). -/
theorem final_arr (c : Dev nD) (R : Buf (Elt Ideal) ((c : Thread nD τ).loc main_v0)) (hR : outsAt0 V c 127 h127 = R) :
    (dat0 V c).arrAt 2 cfg0.N = R :=
  (dat0 V c).arrAt_eq_of_cover 2 R (flushed_eq V c R hR) fun i =>
    ⟨tLast, (flush0_2 tLast).mpr rfl, by
      show i ∈ ((View.whole main_v0).slice (win0_2.rect tLast)).set
      rw [View.set_slice_whole, Rect.mem_set_unit]
      intro a
      have h0 : (i 0 : Nat) < 4000 := (i 0).isLt
      have h1 : (i 1 : Nat) < 2048 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 4000 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 2048 from by decide +kernel]; omega⟩

/-- THE LAUNCH'S VALUE: its result array is the segment sum of the unit rows of the feature array by the index words. -/
theorem final_eq (c : Dev nD) : (dat0 V c).arrAt 2 cfg0.N = fun y => segSum (featArr V c) (wordArr V c) y :=
  final_arr V c _ (last_eq V c)

end Cert.KernelIdeal.GridVal

end
-- ==== Proof.SlabPasses1.lean ====
/-
  The body of the second launch at one grid point, read as values.

  The body's loop makes ten passes, pass k over accumulator rows 400k … 400k + 399. The passes write disjoint
  slabs, so what pass k loads is what the accumulator held when the loop began, and the ten stored slabs together
  are ONE function of the accumulator's index: the entry the loop found plus the tile's contribution to that
  class and column. At the first grid point the body first fills the accumulator with zeros, at every later one
  it starts from what the point before left.
-/
import proofs.«402125_j87625922773344_1_alg».proof.Proof.Gen.KernelIdeal.Frame
import proofs.«402125_j87625922773344_1_alg».proof.Proof.TilePayload
import Idealize.ShloMosaic.Lib.Pipeline.Value

noncomputable section

open scoped BigOperators

namespace Cert.KernelIdeal.SlabVal1

open Idealize.ShloMosaic Idealize.ShloMosaic.ValueIdx Idealize.ShloMosaic.TcCoe Idealize.SL.Sem Idealize.ShloMosaic.Tactic
open Cert.KernelIdeal Cert.KernelIdeal.Gen Cert.SegSpec Cert.KernelIdeal.TileVal

/-- Pass k starts at row 400k, column 0. -/
theorem off_eq : ∀ k : Fin k1_t1_loop.trips, k1_off1 k = ![400 * k.val, 0] := by decide

/-- Rows 400k … 400k + 399 of the accumulator, every column. -/
abbrev slab (k : Fin k1_t1_loop.trips) : Rect S4000x2048 := Rect.unit (k1_off1 k) S400x2048.size (k1_off1_inb k)

/-- Membership in slab k is a condition on the row alone. -/
theorem mem_slab (k : Fin k1_t1_loop.trips) (y : S4000x2048.Idx) :
    y ∈ (slab k).set ↔ 400 * k.val ≤ (y 0).val ∧ (y 0).val < 400 * k.val + 400 := by
  rw [Rect.mem_set_unit, off_eq k]
  constructor
  · intro h; exact h 0
  · intro h a
    match a with
    | ⟨0, _⟩ => exact h
    | ⟨1, _⟩ => exact ⟨Nat.zero_le _, by show (y 1).val < 0 + 2048; have := idx2_lt1 y; omega⟩

/-- Where entry (r, j) of slab k sits in the accumulator. -/
theorem slab_emb (k : Fin k1_t1_loop.trips) (r : Fin 400) (j : Fin 2048) :
    (slab k).emb (ix2 r j) = ix2 ⟨400 * k.val + r.val, by have h1 := k.isLt; have h2 := trips_eq1; have := r.isLt; omega⟩ j := by
  funext a
  apply Fin.ext
  match a with
  | ⟨0, _⟩ => show (k1_off1 k) 0 + 1 * r.val = 400 * k.val + r.val; rw [off_eq k]; show 400 * k.val + 1 * r.val = _; omega
  | ⟨1, _⟩ => show (k1_off1 k) 1 + 1 * j.val = j.val; rw [off_eq k]; show 0 + 1 * j.val = _; omega

section Passes

variable (𝒱 : Variants) (c : Dev nD) (bd : Option 𝒱.V) (i : grid1.Coords)
  (arg1 : Memref sig .tc .vmem S256x2048 .f32) (harg1 : arg1.IsWhole) (arg2 : Memref sig .tc .vmem S256 .i32) (harg2 : arg2.IsWhole)
  (arg3 : Memref sig .tc .vmem S4000x2048 .f32) (harg3 : arg3.IsWhole)

/-- One pass stores one slab: what it loaded, with the tile's contribution added. -/
theorem tripL_eq {F : FTy → Type} [FloatOps F] (v3 : Vec F S256x2048 .f32) (v13 : Vec F S256 .i32) (k : Fin k1_t1_loop.trips)
    (f : BufTy.Contents (Elt F) arg3.view.ty) :
    tripL_k1_t1 (F := F) 𝒱 c bd i arg1 harg1 arg2 harg2 arg3 harg3 v3 v13 k f
      = [⟨slab k, k1_pay2 v3 v13 k (View.readAt (Elt F) arg3.view (slab k).toLoadRect f)⟩] := by
  unfold tripL_k1_t1 trip_k1_t1
  rfl

variable (v3 : Vec Ideal S256x2048 .f32) (v13 : Vec Ideal S256 .i32) (G : BufTy.Contents (Elt Ideal) arg3.view.ty)

/-- After k passes: the stored slabs lie in the rows below 400k, cover them, and each is a block of the one function
    "what the loop found, plus the tile's contribution". -/
theorem passes_inv : ∀ k : Nat, k ≤ 10 →
    (∀ p ∈ pb_k1_t1 (F := Ideal) 𝒱 c bd i arg1 harg1 arg2 harg2 arg3 harg3 v3 v13 G k, ∀ y, y ∈ p.1.set → (y 0).val < 400 * k)
    ∧ (∀ p ∈ pb_k1_t1 (F := Ideal) 𝒱 c bd i arg1 harg1 arg2 harg2 arg3 harg3 v3 v13 G k, ∀ x : p.1.shape.Idx,
        p.2 x = arg3.view.read (Elt Ideal) G (p.1.emb x) + tileAdd v3 v13 (p.1.emb x))
    ∧ (∀ y : S4000x2048.Idx, (y 0).val < 400 * k →
        ∃ p ∈ pb_k1_t1 (F := Ideal) 𝒱 c bd i arg1 harg1 arg2 harg2 arg3 harg3 v3 v13 G k, y ∈ p.1.set)
  | 0, _ => ⟨fun p hp => absurd hp List.not_mem_nil, fun p hp => absurd hp List.not_mem_nil, fun y hy => absurd hy (Nat.not_lt_zero _)⟩
  | k + 1, hk => by
    obtain ⟨ih1, ih2, ih3⟩ := passes_inv k (by omega)
    have hkt : k < k1_t1_loop.trips := by rw [trips_eq1]; omega
    have hL : pb_k1_t1 (F := Ideal) 𝒱 c bd i arg1 harg1 arg2 harg2 arg3 harg3 v3 v13 G (k + 1)
        = ⟨slab ⟨k, hkt⟩, k1_pay2 v3 v13 ⟨k, hkt⟩ (View.readAt (Elt Ideal) arg3.view (slab ⟨k, hkt⟩).toLoadRect
            (arg3.view.writes (Elt Ideal) G (pb_k1_t1 (F := Ideal) 𝒱 c bd i arg1 harg1 arg2 harg2 arg3 harg3 v3 v13 G k)))⟩
          :: pb_k1_t1 (F := Ideal) 𝒱 c bd i arg1 harg1 arg2 harg2 arg3 harg3 v3 v13 G k := by
      have h := pb_k1_t1_succ (F := Ideal) 𝒱 c bd i arg1 harg1 arg2 harg2 arg3 harg3 v3 v13 G ⟨k, hkt⟩
      rw [tripL_eq] at h
      exact h
    refine ⟨?_, ?_, ?_⟩
    · intro p hp y hy
      rw [hL] at hp
      rcases List.mem_cons.mp hp with rfl | hp
      · have := (mem_slab ⟨k, hkt⟩ y).mp hy
        dsimp only at this
        omega
      · have := ih1 p hp y hy; omega
    · intro p hp x
      rw [hL] at hp
      rcases List.mem_cons.mp hp with rfl | hp
      · obtain ⟨r, j, rfl⟩ : ∃ (r : Fin 400) (j : Fin 2048), x = ix2 r j := ⟨x 0, x 1, eq_ix2 x⟩
        show k1_pay2 v3 v13 ⟨k, hkt⟩ _ (ix2 r j) = _
        rw [pass_apply1]
        congr 1
        · rw [View.readAt_apply]
          refine View.read_writes_apply_of_forall_not_mem _ _ _ _ (fun p' hp' hy => ?_)
          have h1 := ih1 p' hp' _ hy
          have h2 : ((slab ⟨k, hkt⟩).toLoadRect.idx (ix2 r j)) = (slab ⟨k, hkt⟩).emb (ix2 r j) := rfl
          rw [h2, slab_emb] at h1
          dsimp only at h1
          omega
        · show _ = tileAdd v3 v13 ((slab ⟨k, hkt⟩).emb (ix2 r j))
          rw [slab_emb]
          rfl
      · exact ih2 p hp x
    · intro y hy
      rw [hL]
      by_cases h : (y 0).val < 400 * k
      · obtain ⟨p, hp, hyp⟩ := ih3 y h
        exact ⟨p, List.mem_cons_of_mem _ hp, hyp⟩
      · exact ⟨_, List.mem_cons_self, (mem_slab ⟨k, hkt⟩ y).mpr ⟨by dsimp only; omega, by dsimp only; omega⟩⟩

/-- So after the ten passes the accumulator, read through any view of its shape over any earlier contents, holds at
    every entry what the loop found there plus the tile's contribution. -/
theorem passes_read {sig' : RefSig} {κ' : Kind} {sp' : Space} (v' : View sig' κ' sp' S4000x2048 .f32) (f' : v'.ty.Contents (Elt Ideal))
    (y : S4000x2048.Idx) :
    v'.read (Elt Ideal) (v'.writes (Elt Ideal) f' (pb_k1_t1 (F := Ideal) 𝒱 c bd i arg1 harg1 arg2 harg2 arg3 harg3 v3 v13 G 10)) y
      = arg3.view.read (Elt Ideal) G y + tileAdd v3 v13 y := by
  obtain ⟨h1, h2, h3⟩ := passes_inv 𝒱 c bd i arg1 harg1 arg2 harg2 arg3 harg3 v3 v13 G 10 (le_refl _)
  have hcov := h3 y (by have := idx2_lt0 y; omega)
  rw [View.read_writes_apply_eq_canon v' f' y _ hcov]
  exact View.canon_apply_of_pieces (fun y => arg3.view.read (Elt Ideal) G y + tileAdd v3 v13 y) _ h2 y hcov

end Passes

/-- The loop's trip count as the body computes it. -/
theorem trips_lit : Scf.trips (0#32) (Scalar.addi 0#32 10#32) 1#32 = 10 := by decide

section Cases

variable (c : Dev nD) (i : grid1.Coords)
  (arg1 : Memref sig .tc .vmem S256x2048 .f32) (harg1 : arg1.IsWhole) (arg2 : Memref sig .tc .vmem S256 .i32) (harg2 : arg2.IsWhole)
  (arg3 : Memref sig .tc .vmem S4000x2048 .f32) (harg3 : arg3.IsWhole)

/-- A LATER GRID POINT: the accumulator holding xo, the body leaves xo plus the tile's contribution, entry by entry. -/
theorem out_B (hc : ¬cond1_0 i) (x0 : Vec Ideal S256x2048 .f32) (x1 : Vec Ideal S256 .i32) (xo : Vec Ideal S4000x2048 .f32)
    (y : S4000x2048.Idx) :
    out1_B_2 (F := Ideal) c i arg1 harg1 arg2 harg2 arg3 harg3 hc x0 x1 xo y = xo y + tileAdd x0 x1 y := by
  unfold out1_B_2 kernelRun1_B
  dsimp only
  simp only [View.readAt_eq_ld, harg1.read_unread, harg2.read_unread, View.ld_unit_zero (S := S256x2048) hz2,
    View.ld_unit_zero (S := S256) hz1]
  rw [trips_lit, passes_read, harg3.read_unread]

/-- THE FIRST GRID POINT: the body fills the accumulator with zeros and leaves zero plus the tile's contribution. -/
theorem out_A (hc : cond1_0 i) (x0 : Vec Ideal S256x2048 .f32) (x1 : Vec Ideal S256 .i32) (y : S4000x2048.Idx) :
    out1_A_2 (F := Ideal) c i arg1 harg1 arg2 harg2 arg3 harg3 hc x0 x1 y = Ideal.ofBits .f32 0x00000000#32 + tileAdd x0 x1 y := by
  unfold out1_A_2 kernelRun1_A
  dsimp only
  sl_unfold_words
  simp only [View.readAt_eq_ld, harg1.read_unread, harg2.read_unread, View.ld_unit_zero (S := S256x2048) hz2,
    View.ld_unit_zero (S := S256) hz1]
  rw [trips_lit, View.writes_append, passes_read]
  congr 1
  rw [View.read_writes_junk_apply_eq_canon, View.canon_unit_zero (S := S4000x2048) hz2]
  rfl

end Cases

end Cert.KernelIdeal.SlabVal1

end
-- ==== Proof.GridSum1.lean ====
/-
  The second launch over its 128 grid points: its result array.

  Grid point t stages tile t of the features (rows 256t … 256t + 255) and of the index words. The accumulator
  block never moves and is written back after the last point only, so what the result array ends holding is what
  the accumulator holds after point 127: zero plus the 128 tiles' contributions, which re-indexed over all 32768
  rows is the segment sum of the unit rows.
-/
import proofs.«402125_j87625922773344_1_alg».proof.Proof.SlabPasses1
import Idealize.ShloMosaic.Lib.Pipeline.Value

noncomputable section

open scoped BigOperators

namespace Cert.KernelIdeal.GridVal1

open Idealize.ShloMosaic Idealize.ShloMosaic.ValueIdx Idealize.ShloMosaic.TcCoe Idealize.SL.Sem
open Idealize.ShloMosaic.Pipeline (Dat)
open Cert.KernelIdeal Cert.KernelIdeal.Gen Cert.SegSpec Cert.KernelIdeal.TileVal Cert.KernelIdeal.SlabVal1

variable (V : (c : Dev nD) → (b : Ref sig .tc) → Buf (Elt Ideal) ((c : Thread nD τ).loc b))

/-- The feature array and the index words as the launch finds them. -/
abbrev featArr (c : Dev nD) : Vec Ideal S32768x2048 .f32 := V c main_arg1
abbrev wordArr (c : Dev nD) : Vec Ideal S32768 .i32 := V c main_arg3

/-- Tile t of each, as the body's two loads read them. -/
abbrev feat (c : Dev nD) (t : Fin cfg1.N) : Vec Ideal S256x2048 .f32 := iblk1 V c 0 t
abbrev word (c : Dev nD) (t : Fin cfg1.N) : Vec Ideal S256 .i32 := iblk1 V c 1 t

theorem idx_feat : ∀ t : Fin cfg1.N, win1_0.index t 0 = t.val ∧ win1_0.index t 1 = 0 :=
  (by decide +kernel : ∀ t : Fin grid1.N, win1_0.index t 0 = t.val ∧ win1_0.index t 1 = 0)
theorem idx_word : ∀ t : Fin cfg1.N, win1_1.index t 0 = t.val :=
  (by decide +kernel : ∀ t : Fin grid1.N, win1_1.index t 0 = t.val)

theorem N128 : cfg1.N = 128 := N_1

/-- Row q of tile t is row 256t + q of the array. -/
theorem feat_apply (c : Dev nD) (t : Fin cfg1.N) (q : Fin 256) (l : Fin 2048) :
    feat V c t (ix2 q l) = featArr V c (ix2 (tileRow ⟨t.val, lt_of_lt_of_eq t.isLt N128⟩ q) l) := by
  unfold feat iblk1
  rw [View.read_apply]
  show V c main_arg1 _ = V c main_arg1 _
  congr 1
  funext a
  apply Fin.ext
  match a with
  | ⟨0, _⟩ => show win1_0.index t 0 * 256 + 1 * q.val = 256 * t.val + q.val; rw [(idx_feat t).1]; omega
  | ⟨1, _⟩ => show win1_0.index t 1 * 2048 + 1 * l.val = l.val; rw [(idx_feat t).2]; omega

theorem word_apply (c : Dev nD) (t : Fin cfg1.N) (q : Fin 256) :
    word V c t (ix1 q) = wordArr V c (ix1 (tileRow ⟨t.val, lt_of_lt_of_eq t.isLt N128⟩ q)) := by
  unfold word iblk1
  rw [View.read_apply]
  show V c main_arg3 _ = V c main_arg3 _
  congr 1
  funext a
  apply Fin.ext
  match a with
  | ⟨0, _⟩ => show win1_1.index t 0 * 256 + 1 * q.val = 256 * t.val + q.val; rw [idx_word t]; omega

/-- A tile's unit rows are the array's. -/
theorem unit_feat (c : Dev nD) (t : Fin cfg1.N) (q : Fin 256) (j : Fin 2048) :
    unitEntry (feat V c t) q j = unitEntry (featArr V c) (tileRow ⟨t.val, lt_of_lt_of_eq t.isLt N128⟩ q) j := by
  unfold unitEntry
  rw [feat_apply]
  congr 3
  refine Finset.sum_congr rfl fun l _ => ?_
  rw [feat_apply]

/-- What grid point n adds to the accumulator (nothing past the grid). -/
def pointAdd (c : Dev nD) (n : ℕ) (y : S4000x2048.Idx) : EReal :=
  if h : n < cfg1.N then tileAdd (feat V c ⟨n, h⟩) (word V c ⟨n, h⟩) y else 0

/-- After grid point n the accumulator holds zero plus the contributions of points 0 … n. -/
theorem outsAt_eq (c : Dev nD) : ∀ (n : ℕ) (h : n < cfg1.N) (y : S4000x2048.Idx),
    outsAt1 V c n h y = Ideal.ofBits .f32 0x00000000#32 + ∑ s ∈ Finset.range (n + 1), pointAdd V c s y
  | 0, h, y => by
    rw [outsAt1_A V c ⟨0, h⟩ (Nat.zero_mod _), out_A, Finset.sum_range_one]
    unfold pointAdd
    rw [dif_pos h]
  | n + 1, h, y => by
    have hN : cfg1.N = 128 := N128
    have hB : ¬(⟨n + 1, h⟩ : Fin cfg1.N).val % 128 = 0 := by dsimp only; omega
    rw [outsAt1_B V c ⟨n + 1, h⟩ hB, out_B]
    show outsAt1 V c n _ y + _ = _
    rw [outsAt_eq c n, Finset.sum_range_succ _ (n + 1), add_assoc]
    congr 2
    unfold pointAdd
    rw [dif_pos h]

/-- The last grid point. -/
abbrev tLast : Fin cfg1.N := ⟨127, by rw [N128]; decide⟩

theorem h127 : 127 < cfg1.N := by rw [N128]; decide

/-- The accumulator after the last point is the segment sum of the unit rows of the feature array by the index words:
    the 128 tiles' contributions, re-indexed over all rows. -/
theorem last_eq (c : Dev nD) : outsAt1 V c 127 h127 = fun y => segSum (featArr V c) (wordArr V c) y := by
  funext y
  rw [outsAt_eq, segSum_tiles]
  show _ + ∑ s ∈ Finset.range 128, pointAdd V c s y = _
  rw [Finset.sum_range (fun s => pointAdd V c s y)]
  congr 1
  refine Finset.sum_congr rfl fun s _ => ?_
  unfold pointAdd
  rw [dif_pos (lt_of_lt_of_eq s.isLt N128.symm)]
  unfold tileAdd
  refine Finset.sum_congr rfl fun q _ => ?_
  rw [word_apply, unit_feat]

-- the accumulator's contents are a recursion on the grid point: from here on it is cited through `last_eq`, never opened
attribute [local irreducible] outsAt1

/-- The one write-back, after point 127, writes the accumulator whole: the block at index (0, 0), of the array's own
    sizes, is the array. Stated for any name R of the accumulator's contents after that point. -/
theorem flushed_eq (c : Dev nD) (R : Buf (Elt Ideal) ((c : Thread nD τ).loc main_v1)) (hR : outsAt1 V c 127 h127 = R)
    (t : Fin cfg1.N) (hf : (cfg1.win 2).flush t = true) :
    (dat1 V c).flushed 2 t = ((cfg1.win 2).blk t).view.read (Elt Ideal) R := by
  have hN : cfg1.N = 128 := N128
  have h127' : t.val = 127 := by have := (flush1_2 t).mp hf; have := t.isLt; omega
  obtain rfl : t = tLast := Fin.ext h127'
  show (cfg1.win 2).cut (grid1.coords tLast) ((dat1 V c).after 2 tLast) = _
  rw [after1_2]
  show (cfg1.win 2).cut (grid1.coords tLast) (outsAt1 V c 127 h127) = _
  rw [hR]
  have hz' : (fun a => win1_2.index tLast a * main_v1.ty.shape.size a) = fun _ => 0 := funext fun a => by fin_cases a <;> decide +kernel
  exact (Memref.read_access_unit_zero (Elt Ideal) main_v1 hz' (fun a => by rw [congrFun hz' a]; simp) R).symm

/-- So the result array ends holding the accumulator after point 127 (that point's block covers it). -/
theorem final_arr (c : Dev nD) (R : Buf (Elt Ideal) ((c : Thread nD τ).loc main_v1)) (hR : outsAt1 V c 127 h127 = R) :
    (dat1 V c).arrAt 2 cfg1.N = R :=
  (dat1 V c).arrAt_eq_of_cover 2 R (flushed_eq V c R hR) fun i =>
    ⟨tLast, (flush1_2 tLast).mpr rfl, by
      show i ∈ ((View.whole main_v1).slice (win1_2.rect tLast)).set
      rw [View.set_slice_whole, Rect.mem_set_unit]
      intro a
      have h0 : (i 0 : Nat) < 4000 := (i 0).isLt
      have h1 : (i 1 : Nat) < 2048 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 4000 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 2048 from by decide +kernel]; omega⟩

/-- THE LAUNCH'S VALUE: its result array is the segment sum of the unit rows of the feature array by the index words. -/
theorem final_eq (c : Dev nD) : (dat1 V c).arrAt 2 cfg1.N = fun y => segSum (featArr V c) (wordArr V c) y :=
  final_arr V c _ (last_eq V c)

end Cert.KernelIdeal.GridVal1

end
-- ==== Proof.TailFn.lean ====
/-
  From segment sums to the updated memory: the part both programs share.

  For one view: the class counts are the segment sums of ones; the class mean is the segment sum divided by the
  count kept above one; the mean is divided by its row length (kept above the floor), blended with the stored
  memory (0.9 of the memory, 0.1 of the unit mean, both as their binary literals), divided by its row length again,
  and kept only for the classes that occur; the other classes keep their memory row. The two views are stacked.
  Each step is one operation of either program, so the whole is written once, as a function of the segment sum,
  and neither certificate opens it.
-/
import proofs.«402125_j87625922773344_1_alg».proof.KernelIdeal

noncomputable section

namespace Cert.KernelIdeal.Tail

open Idealize.ShloMosaic Cert.KernelIdeal
open Cert.KernelIdeal.Facts₀ Cert.KernelIdeal.Facts

variable [Cert.KernelIdeal.Facts] {F : FTy → Type} [FloatOps F]

/-- How many rows carry each class: the segment sums of ones. -/
def counts (ids : IVec S32768 32) : FVec F S4000 .f32 :=
  Host.scatterAdd scatter_S4000_S32768x1_S32768_n_0_0_1
    (broadcastInDim S4000 ![] bcast_S_S4000 (constant S_ .f32 0x00000000#32))
    (broadcastInDim S32768x1 ![0] bcast_S32768_S32768x1_0 ids)
    (broadcastInDim S32768 ![] bcast_S_S32768 (constant S_ .f32 0x3F800000#32))

/-- Every row divided by its Euclidean length, the length kept above the floor. -/
def unitRows (x : FVec F S4000x2048 .f32) : FVec F S4000x2048 .f32 :=
  Host.divf x (broadcastInDim S4000x2048 ![0, 1] bcast_S4000x1_S4000x2048_0_1
    (maximumf (Host.sqrt (broadcastInDim S4000x1 ![0] bcast_S4000_S4000x1_0
        (Host.reduceAdd (mulf x x) (constant S_ .f32 0x00000000#32) reducesTo_S4000x2048_S4000_d1 h_S_)))
      (broadcastInDim S4000x1 ![] bcast_S_S4000x1 (constant S_ .f32 0x2B8CBCCC#32))))

/-- The class means: each segment sum divided by its count kept above one. -/
def means (seg : FVec F S4000x2048 .f32) (ids : IVec S32768 32) : FVec F S4000x2048 .f32 :=
  Host.divf seg (broadcastInDim S4000x2048 ![0, 1] bcast_S4000x1_S4000x2048_0_1
    (broadcastInDim S4000x1 ![0] bcast_S4000_S4000x1_0
      (maximumf (counts (F := F) ids) (broadcastInDim S4000 ![] bcast_S_S4000 (constant S_ .f32 0x3F800000#32)))))

/-- The memory blended with the unit means. -/
def blend (mem y : FVec F S4000x2048 .f32) : FVec F S4000x2048 .f32 :=
  addf (mulf (broadcastInDim S4000x2048 ![] bcast_S_S4000x2048 (constant S_ .f32 0x3F666666#32)) mem)
    (mulf (broadcastInDim S4000x2048 ![] bcast_S_S4000x2048 (constant S_ .f32 0x3DCCCCCD#32)) y)

/-- One view's updated memory from its segment sums. -/
def finish (seg : FVec F S4000x2048 .f32) (ids : IVec S32768 32) (mem : FVec F S4000x2048 .f32) : FVec F S4000x2048 .f32 :=
  select (broadcastInDim S4000x2048 ![0, 1] bcast_S4000x1_S4000x2048_0_1
      (broadcastInDim S4000x1 ![0] bcast_S4000_S4000x1_0
        (cmpf (F := F) .ogt (counts (F := F) ids) (broadcastInDim S4000 ![] bcast_S_S4000 (constant S_ .f32 0x00000000#32)))))
    (unitRows (blend mem (unitRows (means seg ids)))) mem

/-- The two views, one above the other. -/
def stack (a b : FVec F S4000x2048 .f32) : FVec F S2x4000x2048 .f32 :=
  concatenate S2x4000x2048 0
    [⟨S1x4000x2048, broadcastInDim S1x4000x2048 ![1, 2] bcast_S4000x2048_S1x4000x2048_1_2 a⟩,
     ⟨S1x4000x2048, broadcastInDim S1x4000x2048 ![1, 2] bcast_S4000x2048_S1x4000x2048_1_2 b⟩]
    concatenates_S1x4000x2048_S1x4000x2048_S2x4000x2048_d0

end Cert.KernelIdeal.Tail

end
-- ==== Proof.KernelTail.lean ====
/-
  The host operations after the two launches, read as one function of the launches' result arrays.

  After the second launch @main runs 76 host operations in thirteen stretches. Folded back from the result
  buffer, they are the shared finishing function applied, view by view, to the launch's result array, the view's
  index words and its memory, and the two views stacked; the index words and the memories are still what @main was
  launched with, since no launch and no host operation writes an argument.
-/
import proofs.«402125_j87625922773344_1_alg».proof.Proof.Gen.KernelIdeal.Frame
import proofs.«402125_j87625922773344_1_alg».proof.Proof.TailFn
import Idealize.ShloMosaic.Lib.StableHlo.Run

set_option maxRecDepth 16384

noncomputable section

namespace Cert.KernelIdeal.TailRun

open Idealize.ShloMosaic Idealize.ShloMosaic.TcCoe Idealize.SL.Sem Idealize.ShloMosaic.StableHlo
open Cert.KernelIdeal Cert.KernelIdeal.Gen Cert.KernelIdeal.Tail

variable {F : FTy → Type} [FloatOps F]
variable (m : (ℓ : Loc nD τ sig) → Buf (Elt F) ℓ) (ρ : Dev nD → PrngReg)

/-- After both launches the arguments the host operations read are as launched. -/
theorem W2_arg2 (c : Dev nD) : W2 m ρ c (Proc.devRef .tc main_arg2) = m ((c : Thread nD τ).loc main_arg2) :=
  (W2_of_ne m ρ c main_arg2 (by decide)).trans
    ((W1_arr m ρ c 1).trans (((dat0 (V0 m ρ) c).arrAt_in 1 rfl _).trans (A_eq0 (V0 m ρ) c 1)))
theorem W2_arg3 (c : Dev nD) : W2 m ρ c (Proc.devRef .tc main_arg3) = m ((c : Thread nD τ).loc main_arg3) :=
  ((W2_arr m ρ c 1).trans (((dat1 (V1 m ρ) c).arrAt_in 1 rfl _).trans (A_eq1 (V1 m ρ) c 1))).trans
    (W1_of_ne m ρ c main_arg3 (by decide))
theorem W2_arg4 (c : Dev nD) : W2 m ρ c (Proc.devRef .tc main_arg4) = m ((c : Thread nD τ).loc main_arg4) :=
  (W2_of_ne m ρ c main_arg4 (by decide)).trans (W1_of_ne m ρ c main_arg4 (by decide))
theorem W2_arg5 (c : Dev nD) : W2 m ρ c (Proc.devRef .tc main_arg5) = m ((c : Thread nD τ).loc main_arg5) :=
  (W2_of_ne m ρ c main_arg5 (by decide)).trans (W1_of_ne m ρ c main_arg5 (by decide))

set_option maxHeartbeats 4000000 in
/-- The result buffer after the last host operation. -/
theorem tail_eq (c : Dev nD) : W15 m ρ c (Proc.devRef .tc main_v60)
    = stack (finish (W2 m ρ c (Proc.devRef .tc main_v0)) (m ((c : Thread nD τ).loc main_arg2)) (m ((c : Thread nD τ).loc main_arg4)))
        (finish (W2 m ρ c (Proc.devRef .tc main_v1)) (m ((c : Thread nD τ).loc main_arg3)) (m ((c : Thread nD τ).loc main_arg5))) := by
  rw [← W2_arg2 m ρ c, ← W2_arg3 m ρ c, ← W2_arg4 m ρ c, ← W2_arg5 m ρ c]
  dsimp only [W15, W14, W13, W12, W11, W10, W9, W8, W7, W6, W5, W4, W3]
  generalize W2 m ρ c = W
  dsimp only [hostOps2, hostOps2_1, hostOps2_2, hostOps2_3, hostOps2_4, hostOps2_5, hostOps2_6, hostOps2_7, hostOps2_8,
    hostOps2_9, hostOps2_10, hostOps2_11, hostOps2_12]
  after_results_simp
  rfl

end Cert.KernelIdeal.TailRun

end
-- ==== Proof.RefValue.lean ====
/-
  The reference's result, read.

  The reference divides every row of a view's features by its length (kept above the floor), adds row e into
  row n of a zero table when the e-th index word, read signed, is n (dropping it when the word names no row),
  and hands that table, the index words and the memory to the finishing steps it shares with the kernel. Its
  scatter, read at an entry, is the segment sum of the unit rows; the finishing steps are not opened.
-/
import proofs.«402125_j87625922773344_1_alg».proof.Proof.RefRead
import proofs.«402125_j87625922773344_1_alg».proof.Proof.Gen.KernelIdeal
import proofs.«402125_j87625922773344_1_alg».proof.Proof.TailFn
import proofs.«402125_j87625922773344_1_alg».proof.Proof.SegSpec
import Idealize.ShloMosaic.Lib.ValueIdx
import Idealize.ShloMosaic.PureOps.Ideal.Laws

set_option maxRecDepth 16384

noncomputable section

open scoped BigOperators

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.ReadP Cert.SegSpec Cert.LibRows

/-- The first view's unit rows at (e, j). -/
theorem unit_v (x0 : (⟨S32768x2048, .f32⟩ : BufTy).Contents (Elt Ideal)) (e : Fin 32768) (j : Fin 2048) :
    val_main_v4 (F := Ideal) x0 (ix2 e j) = unitEntry x0 e j := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.hostUnary_sqrt_def, Ideal.maximumf_def, Ideal.mulf_def,
    Ideal.ofBits_def, Ideal.ofBits_zero_f32, zero_add]
  have hi : ∀ k : Fin 2048, idx_main_call0_v1 (idx_main_call0_v2 (idx_main_v3 (ix2 e j))) k = ix2 e k := fun k =>
    funext fun a => Fin.ext (by match a with | ⟨0, _⟩ => rfl | ⟨1, _⟩ => rfl)
  simp only [hi]
  rfl

/-- The second view's. -/
theorem unit_r (x1 : (⟨S32768x2048, .f32⟩ : BufTy).Contents (Elt Ideal)) (e : Fin 32768) (j : Fin 2048) :
    val_main_v9 (F := Ideal) x1 (ix2 e j) = unitEntry x1 e j := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, Ideal.hostDivf_def, Ideal.hostUnary_sqrt_def, Ideal.maximumf_def, Ideal.mulf_def,
    Ideal.ofBits_def, Ideal.ofBits_zero_f32, zero_add]
  have hi : ∀ k : Fin 2048, idx_main_call1_v1 (idx_main_call1_v2 (idx_main_v8 (ix2 e j))) k = ix2 e k := fun k =>
    funext fun a => Fin.ext (by match a with | ⟨0, _⟩ => rfl | ⟨1, _⟩ => rfl)
  simp only [hi]
  rfl

/-- The first view's scatter is the segment sum of its unit rows. -/
theorem seg_v (x0 : (⟨S32768x2048, .f32⟩ : BufTy).Contents (Elt Ideal)) (x2 : (⟨S32768, .i32⟩ : BufTy).Contents (Elt Ideal)) :
    val_main_v12 (F := Ideal) x0 x2 = fun y => segSum x0 x2 y := by
  funext y
  obtain ⟨n, j, rfl⟩ : ∃ (n : Fin 4000) (j : Fin 2048), y = ix2 n j := ⟨y 0, y 1, eq_ix2 y⟩
  have hs := scatterAdd_rows' (φ := .f32) (N := 4000) (E := 32768) (C := 2048) scatter_S4000x2048_S32768x1_S32768x2048_1_0_0_1
    rfl rfl rfl rfl (val_main_v10 (F := Ideal)) (val_main_v11 (F := Ideal) x2) (val_main_v4 (F := Ideal) x0) n j
  refine hs.trans ?_
  unfold segSum
  refine congrArg₂ (· + ·) ?_ ?_
  · rw [val_main_v10_apply, val_main_cst_1_apply]; rfl
  · have hw : ∀ e : Fin 32768, val_main_v11 (F := Ideal) x2 (ix2 e 0) = x2 (ix1 e) := fun e => by
      rw [val_main_v11_apply]
      exact congrArg x2 (funext fun a => Fin.ext (by match a with | ⟨0, _⟩ => rfl))
    refine Finset.sum_congr (Finset.filter_congr fun e _ => ?_) (fun e _ => unit_v x0 e j)
    rw [hw e]

/-- The second view's. -/
theorem seg_r (x1 : (⟨S32768x2048, .f32⟩ : BufTy).Contents (Elt Ideal)) (x3 : (⟨S32768, .i32⟩ : BufTy).Contents (Elt Ideal)) :
    val_main_v43 (F := Ideal) x1 x3 = fun y => segSum x1 x3 y := by
  funext y
  obtain ⟨n, j, rfl⟩ : ∃ (n : Fin 4000) (j : Fin 2048), y = ix2 n j := ⟨y 0, y 1, eq_ix2 y⟩
  have hs := scatterAdd_rows' (φ := .f32) (N := 4000) (E := 32768) (C := 2048) scatter_S4000x2048_S32768x1_S32768x2048_1_0_0_1
    rfl rfl rfl rfl (val_main_v41 (F := Ideal)) (val_main_v42 (F := Ideal) x3) (val_main_v9 (F := Ideal) x1) n j
  refine hs.trans ?_
  unfold segSum
  refine congrArg₂ (· + ·) ?_ ?_
  · rw [val_main_v41_apply, val_main_cst_10_apply]; rfl
  · have hw : ∀ e : Fin 32768, val_main_v42 (F := Ideal) x3 (ix2 e 0) = x3 (ix1 e) := fun e => by
      rw [val_main_v42_apply]
      exact congrArg x3 (funext fun a => Fin.ext (by match a with | ⟨0, _⟩ => rfl))
    refine Finset.sum_congr (Finset.filter_congr fun e _ => ?_) (fun e _ => unit_r x1 e j)
    rw [hw e]

/-- The reference's result is the shared finishing steps applied, view by view, to its scatter. -/
theorem ref_tail {F : FTy → Type} [FloatOps F] (x0 x1 : (⟨S32768x2048, .f32⟩ : BufTy).Contents (Elt F))
    (x2 x3 : (⟨S32768, .i32⟩ : BufTy).Contents (Elt F)) (x4 x5 : (⟨S4000x2048, .f32⟩ : BufTy).Contents (Elt F)) :
    val_main_v74 (F := F) x0 x1 x2 x3 x4 x5
      = Cert.KernelIdeal.Tail.stack (Cert.KernelIdeal.Tail.finish (val_main_v12 (F := F) x0 x2) x2 x4)
          (Cert.KernelIdeal.Tail.finish (val_main_v43 (F := F) x1 x3) x3 x5) := rfl

end Cert.ReferenceIdeal.RefVal

end
-- ==== Proof.lean ====
/-
  The kernel computes, for each of two views, the per-class sums of the unit feature rows as a one-hot matrix
  product accumulated over 128 row tiles (ten passes of 400 classes per tile), and finishes on the host; the
  reference scatters the unit rows by their index words and finishes the same way.

  Over the extended reals the one-hot weight is 1 exactly when an index word, read as a signed integer and not
  clamped, lands on the class (an index word that names no class matches no row of the one-hot matrix and is
  dropped by the scatter alike), 1 · a = a and 0 · a = 0 for every extended real a, and a sum over all rows may be
  taken tile by tile: so each launch's result array IS the reference's scatter, entry by entry, for every input, and
  nothing is asked of the inputs. The finishing operations are the same in both programs and are carried as one
  function of the segment sums.

  frame_Kernel, frame_KernelIdeal: the generated frames. frame_ReferenceIdeal: the reference's run with the result
  dropped. preserves: the idealization rewrote nothing. algebraic: both runs end at the shared finishing function of
  the segment sums of the two views.
-/
import proofs.«402125_j87625922773344_1_alg».proof.Defs
import proofs.«402125_j87625922773344_1_alg».proof.Proof.Gen.Kernel
import proofs.«402125_j87625922773344_1_alg».proof.Proof.Gen.Kernel.Frame
import proofs.«402125_j87625922773344_1_alg».proof.Proof.Gen.KernelIdeal
import proofs.«402125_j87625922773344_1_alg».proof.Proof.Gen.KernelIdeal.Frame
import proofs.«402125_j87625922773344_1_alg».proof.Proof.Gen.ReferenceIdeal
import proofs.«402125_j87625922773344_1_alg».proof.Proof.Gen.Pre_finite_inputs
import proofs.«402125_j87625922773344_1_alg».proof.Proof.FrameRun
import proofs.«402125_j87625922773344_1_alg».proof.Proof.GridSum
import proofs.«402125_j87625922773344_1_alg».proof.Proof.GridSum1
import proofs.«402125_j87625922773344_1_alg».proof.Proof.KernelTail
import proofs.«402125_j87625922773344_1_alg».proof.Proof.RefValue
import Idealize.ShloMosaic.Adequacy
import Idealize.ShloMosaic.Init

noncomputable section

namespace Cert.Proof

open Idealize.ShloMosaic Idealize.ShloMosaic.TcCoe Idealize.SL.Sem Cert.SegSpec

/-- What both programs end holding: the finishing function of the two views' segment sums, stacked. -/
abbrev updated (xv xr : FVec Ideal Cert.KernelIdeal.S32768x2048 .f32) (wv wr : IVec Cert.KernelIdeal.S32768 32)
    (mv mr : FVec Ideal Cert.KernelIdeal.S4000x2048 .f32) : FVec Ideal Cert.KernelIdeal.S2x4000x2048 .f32 :=
  Cert.KernelIdeal.Tail.stack (Cert.KernelIdeal.Tail.finish (fun y => segSum xv wv y) wv mv)
    (Cert.KernelIdeal.Tail.finish (fun y => segSum xr wr y) wr mr)

section Kernel

open Cert.KernelIdeal Cert.KernelIdeal.Gen

variable (m : (ℓ : Loc nD τ sig) → Buf (Elt Ideal) ℓ) (ρ : Dev nD → PrngReg)

/-- The kernel's result buffer after its last host operation. -/
theorem kernel_value (c : Dev nD) : W15 m ρ c (Proc.devRef .tc main_v60)
    = updated (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  have e0 : W2 m ρ c (Proc.devRef .tc main_v0)
      = fun y => segSum (m ((c : Thread nD τ).loc main_arg0)) (m ((c : Thread nD τ).loc main_arg2)) y :=
    (W2_of_ne m ρ c main_v0 (by decide)).trans ((W1_arr m ρ c 2).trans (Cert.KernelIdeal.GridVal.final_eq (V0 m ρ) c))
  have a1 : Cert.KernelIdeal.GridVal1.featArr (V1 m ρ) c = m ((c : Thread nD τ).loc main_arg1) :=
    W1_of_ne m ρ c main_arg1 (by decide)
  have a3 : Cert.KernelIdeal.GridVal1.wordArr (V1 m ρ) c = m ((c : Thread nD τ).loc main_arg3) :=
    W1_of_ne m ρ c main_arg3 (by decide)
  have e1 : W2 m ρ c (Proc.devRef .tc main_v1)
      = fun y => segSum (m ((c : Thread nD τ).loc main_arg1)) (m ((c : Thread nD τ).loc main_arg3)) y := by
    refine (W2_arr m ρ c 2).trans ((Cert.KernelIdeal.GridVal1.final_eq (V1 m ρ) c).trans ?_)
    rw [a1, a3]
  rw [Cert.KernelIdeal.TailRun.tail_eq, e0, e1]

/-- The kernel's run, its result named. -/
theorem kernel_run : θ_run defs (onTc (τ := τ) (main (F := Ideal))) ⟨m, fun _ => 0, ρ⟩ (fun r => ∀ c : Dev nD,
      r.2.mem ((c.tc : Thread nD τ).loc main_v60)
        = updated (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (kernel_value m ρ c), (h c).2⟩)
    (Cert.KernelIdeal.GenRun.run_main (F := Ideal) m ρ)

end Kernel

section Reference

open Cert.ReferenceIdeal Cert.ReferenceIdeal.Gen Cert.ReferenceIdeal.ReadP Cert.ReferenceIdeal.RefVal

variable (m : (ℓ : Loc nD τ sig) → Buf (Elt Ideal) ℓ)

/-- The reference's result term. -/
theorem reference_value (c : Dev nD) : Cert.ReferenceIdeal.RunP.res_main_v74 m c
    = updated (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [val_main_v74_eq, ref_tail, seg_v, seg_r]

end Reference

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  rw [reference_value, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
